-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x256 : Shape := ⟨2, ![512, 256]⟩
abbrev S32768x256 : Shape := ⟨2, ![32768, 256]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel
  bcast_S_S32768x256 : S_.BroadcastsInDim S32768x256 (![] : Fin 0 → Fin S32768x256.rank)
  reducesTo_S32768x256_S_d0_1 : S32768x256.ReducesTo [0, 1] S_

variable [Facts]

def fn {F : FTy → Type} [FloatOps F] (main_arg0 : FVec F S512x256 .f32) (main_arg1 : FVec F S512x256 .f32) (main_arg2 : FVec F S32768x256 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S32768x256 .f32 := Host.absf main_arg2
  let main_cst_2 : FVec F S_ .f32 := constant S_ .f32 0x7F800000#32
  let main_v10 : FVec F S32768x256 .f32 := broadcastInDim S32768x256 ![] bcast_S_S32768x256 main_cst_2
  let main_v11 : IVec S32768x256 1 := cmpf .olt main_v9 main_v10
  let main_c_3 : IVec S_ 1 := constantI S_ 1 1#1
  let main_v12 : IVec S_ 1 := (fun x v => Host.reduce IntOp.andi x v reducesTo_S32768x256_S_d0_1 h_S_) main_v11 main_c_3
  let main_v13 : IVec S_ 1 := andi main_v8 main_v12
  main_v13
-- ==== Kernel.lean ====
abbrev S512x256 : Shape := ⟨2, ![512, 256]⟩
abbrev S32768x256 : Shape := ⟨2, ![32768, 256]⟩
abbrev S2x512x256 : Shape := ⟨3, ![2, 512, 256]⟩
abbrev S2x512x1 : Shape := ⟨3, ![2, 512, 1]⟩
abbrev S4096x256 : Shape := ⟨2, ![4096, 256]⟩
abbrev S1x512x256 : Shape := ⟨3, ![1, 512, 256]⟩
abbrev S1x512x1 : Shape := ⟨3, ![1, 512, 1]⟩
abbrev S512x1 : Shape := ⟨2, ![512, 1]⟩
abbrev S4096 : Shape := ⟨1, ![4096]⟩
abbrev S4096x1 : Shape := ⟨2, ![4096, 1]⟩
abbrev S1x4096 : Shape := ⟨2, ![1, 4096]⟩
abbrev S512x4096 : Shape := ⟨2, ![512, 4096]⟩
abbrev S512 : Shape := ⟨1, ![512]⟩
abbrev S_ : Shape := ⟨0, ![]⟩

abbrev nBuf : Space → Nat
  | .hbm => 39
  | .vmem => 12
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S32768x256, .f32⟩
  | .hbm, ⟨3, _⟩ => ⟨S2x512x256, .f32⟩
  | .hbm, ⟨4, _⟩ => ⟨S2x512x1, .f32⟩
  | .hbm, ⟨5, _⟩ => ⟨S2x512x1, .f32⟩
  | .hbm, ⟨6, _⟩ => ⟨S1x512x1, .f32⟩
  | .hbm, ⟨7, _⟩ => ⟨S512x1, .f32⟩
  | .hbm, ⟨8, _⟩ => ⟨S1x512x1, .f32⟩
  | .hbm, ⟨9, _⟩ => ⟨S512x1, .f32⟩
  | .hbm, ⟨10, _⟩ => ⟨S1x512x1, .f32⟩
  | .hbm, ⟨11, _⟩ => ⟨S512x1, .f32⟩
  | .hbm, ⟨12, _⟩ => ⟨S1x512x1, .f32⟩
  | .hbm, ⟨13, _⟩ => ⟨S512x1, .f32⟩
  | .hbm, ⟨14, _⟩ => ⟨S1x512x256, .f32⟩
  | .hbm, ⟨15, _⟩ => ⟨S512x256, .f32⟩
  | .hbm, ⟨16, _⟩ => ⟨S1x512x256, .f32⟩
  | .hbm, ⟨17, _⟩ => ⟨S512x256, .f32⟩
  | .hbm, ⟨18, _⟩ => ⟨S512x1, .f32⟩
  | .hbm, ⟨19, _⟩ => ⟨S512x1, .f32⟩
  | .hbm, ⟨20, _⟩ => ⟨S512x1, .f32⟩
  | .hbm, ⟨21, _⟩ => ⟨S512x1, .f32⟩
  | .hbm, ⟨22, _⟩ => ⟨S512x1, .f32⟩
  | .hbm, ⟨23, _⟩ => ⟨S512x1, .f32⟩
  | .hbm, ⟨24, _⟩ => ⟨S512x1, .f32⟩
  | .hbm, ⟨25, _⟩ => ⟨S512x1, .f32⟩
  | .hbm, ⟨26, _⟩ => ⟨S512x256, .f32⟩
  | .hbm, ⟨27, _⟩ => ⟨S512x256, .f32⟩
  | .hbm, ⟨28, _⟩ => ⟨S512x256, .f32⟩
  | .hbm, ⟨29, _⟩ => ⟨S512x256, .f32⟩
  | .hbm, ⟨30, _⟩ => ⟨S512x256, .f32⟩
  | .hbm, ⟨31, _⟩ => ⟨S512x256, .f32⟩
  | .hbm, ⟨32, _⟩ => ⟨S512x256, .f32⟩
  | .hbm, ⟨33, _⟩ => ⟨S512x256, .f32⟩
  | .hbm, ⟨34, _⟩ => ⟨S_, .f32⟩
  | .hbm, ⟨35, _⟩ => ⟨S512x256, .f32⟩
  | .hbm, ⟨36, _⟩ => ⟨S512x256, .f32⟩
  | .hbm, ⟨37, _⟩ => ⟨S512x256, .f32⟩
  | .hbm, ⟨38, _⟩ => ⟨S512x256, .f32⟩
  | .local _ .vmem, ⟨0, _⟩ => ⟨S512x256, .f32⟩
  | .local _ .vmem, ⟨1, _⟩ => ⟨S4096x256, .f32⟩
  | .local _ .vmem, ⟨2, _⟩ => ⟨S4096x256, .f32⟩
  | .local _ .vmem, ⟨3, _⟩ => ⟨S1x512x256, .f32⟩
  | .local _ .vmem, ⟨4, _⟩ => ⟨S1x512x256, .f32⟩
  | .local _ .vmem, ⟨5, _⟩ => ⟨S1x512x1, .f32⟩
  | .local _ .vmem, ⟨6, _⟩ => ⟨S1x512x1, .f32⟩
  | .local _ .vmem, ⟨7, _⟩ => ⟨S1x512x1, .f32⟩
  | .local _ .vmem, ⟨8, _⟩ => ⟨S1x512x1, .f32⟩
  | .local _ .vmem, ⟨9, _⟩ => ⟨S512x1, .f32⟩
  | .local _ .vmem, ⟨10, _⟩ => ⟨S512x1, .f32⟩
  | .local _ .vmem, ⟨11, _⟩ => ⟨S512x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_cst : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v48 : BitVec 1 := Scalar.cmpi .eq arg1 c3_i32
  let v49 : BitVec 32 := Scalar.extui v48
  let c0_i32_24 : BitVec 32 := 0#32
  let v50 : BitVec 1 := Scalar.cmpi .ne v49 c0_i32_24
  v50

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S4096x256_S4096x256_0_0 : ∀ a, (![0, 0] : Fin 2 → Nat) a + S4096x256.size a ≤ S4096x256.size a
  h_S4096x256 : 0 < S4096x256.numel
  bitsLt_bf16_f32 : FTy.bits .bf16 < FTy.bits .f32
  reduces_S4096x256_S4096 : S4096x256.Reduces [1] S4096
  shapeCasts_S4096_S4096x1 : S4096.ShapeCasts S4096x1
  transposes_S4096x1_p1_0_S1x4096 : S4096x1.Transposes [1, 0] S1x4096
  broadcasts_S1x4096_S512x4096 : S1x4096.Broadcasts S512x4096
  reduces_S512x4096_S512 : S512x4096.Reduces [1] S512
  shapeCasts_S512_S512x1 : S512.ShapeCasts S512x1
  broadcasts_S512x1_S512x4096 : S512x1.Broadcasts S512x4096
  broadcasts_S512x1_S512x256 : S512x1.Broadcasts S512x256
  shapeCasts_S512x256_S1x512x256 : S512x256.ShapeCasts S1x512x256
  inb_S1x512x256_S1x512x256_0_0_0 : ∀ a, (![0, 0, 0] : Fin 3 → Nat) a + S1x512x256.size a ≤ S1x512x256.size a
  h_S1x512x256 : 0 < S1x512x256.numel
  shapeCasts_S512x1_S1x512x1 : S512x1.ShapeCasts S1x512x1
  inb_S1x512x1_S1x512x1_0_0_0 : ∀ a, (![0, 0, 0] : Fin 3 → Nat) a + S1x512x1.size a ≤ S1x512x1.size a
  h_S1x512x1 : 0 < S1x512x1.numel
  slices_S2x512x1_S1x512x1_0_0_0 : S2x512x1.Slices ![0, 0, 0] S1x512x1
  shapeCasts_S1x512x1_S512x1 : S1x512x1.ShapeCasts S512x1
  slices_S2x512x1_S1x512x1_1_0_0 : S2x512x1.Slices ![1, 0, 0] S1x512x1
  slices_S2x512x256_S1x512x256_0_0_0 : S2x512x256.Slices ![0, 0, 0] S1x512x256
  shapeCasts_S1x512x256_S512x256 : S1x512x256.ShapeCasts S512x256
  slices_S2x512x256_S1x512x256_1_0_0 : S2x512x256.Slices ![1, 0, 0] S1x512x256
  bcast_S512x1_S512x256_0_1 : S512x1.BroadcastsInDim S512x256 (![0, 1] : Fin 2 → Fin S512x256.rank)
  bcast_S_S512x256 : S_.BroadcastsInDim S512x256 (![] : Fin 0 → Fin S512x256.rank)
  dot_S512x256_S4096x256_S512x4096_1_1_0_0_n_n_wf : DotDims.WF S512x256 S4096x256 S512x4096 [1] [1] [0] [0] [] []
  dot_S512x4096_S4096x256_S512x256_1_0_0_1_n_n_wf : DotDims.WF S512x4096 S4096x256 S512x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S512x256.size a
  hwx0_0 : ∀ i : grid0.Coords, EltTy.bits .f32 = 32 ∨ (Rect.block (s := S512x256) S512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S32768x256.size a
  hwx0_1 : ∀ i : grid0.Coords, EltTy.bits .f32 = 32 ∨ (Rect.block (s := S32768x256) S4096x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x256.size a ≤ S2x512x256.size a
  hwx0_2 : ∀ i : grid0.Coords, EltTy.bits .f32 = 32 ∨ (Rect.block (s := S2x512x256) S1x512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1.size a ≤ S2x512x1.size a
  hwx0_3 : ∀ i : grid0.Coords, EltTy.bits .f32 = 32 ∨ (Rect.block (s := S2x512x1) S1x512x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1.size a ≤ S2x512x1.size a
  hwx0_4 : ∀ i : grid0.Coords, EltTy.bits .f32 = 32 ∨ (Rect.block (s := S2x512x1) S1x512x1.size (cc0_transform_4 i) (hinb0_4 i)).WholeWords (EltTy.packing .f32)

variable [Facts₀]

def dot_S512x256_S4096x256_S512x4096_1_1_0_0_n_n : DotDims S512x256 S4096x256 S512x4096 where
  lhsContracting := [1]
  rhsContracting := [1]
  lhsNonContracting := [0]
  rhsNonContracting := [0]
  lhsBatch := []
  rhsBatch := []
  wf := dot_S512x256_S4096x256_S512x4096_1_1_0_0_n_n_wf
def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf

abbrev win0_0 : Pipeline.Window sig grid0 :=
  Pipeline.Window.ofSpec (Memref.whole main_arg0) S512x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x512x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x512x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S1x512x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun i => !(k0_cond2 i == 1#1) | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S512x256 : Shape := ⟨2, ![512, 256]⟩
abbrev S32768x256 : Shape := ⟨2, ![32768, 256]⟩
abbrev S_ : Shape := ⟨0, ![]⟩
abbrev S32768 : Shape := ⟨1, ![32768]⟩
abbrev S512 : Shape := ⟨1, ![512]⟩
abbrev S32768x512 : Shape := ⟨2, ![32768, 512]⟩
abbrev S32768x1 : Shape := ⟨2, ![32768, 1]⟩
abbrev S1x512 : Shape := ⟨2, ![1, 512]⟩

abbrev nBuf : Space → Nat
  | .hbm => 43
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S32768x256, .f32⟩
  | .hbm, ⟨3, _⟩ => ⟨S32768x256, .f32⟩
  | .hbm, ⟨4, _⟩ => ⟨S_, .f32⟩
  | .hbm, ⟨5, _⟩ => ⟨S32768, .f32⟩
  | .hbm, ⟨6, _⟩ => ⟨S512x256, .f32⟩
  | .hbm, ⟨7, _⟩ => ⟨S_, .f32⟩
  | .hbm, ⟨8, _⟩ => ⟨S512, .f32⟩
  | .hbm, ⟨9, _⟩ => ⟨S32768x512, .f32⟩
  | .hbm, ⟨10, _⟩ => ⟨S32768x1, .f32⟩
  | .hbm, ⟨11, _⟩ => ⟨S_, .f32⟩
  | .hbm, ⟨12, _⟩ => ⟨S32768x512, .f32⟩
  | .hbm, ⟨13, _⟩ => ⟨S32768x512, .f32⟩
  | .hbm, ⟨14, _⟩ => ⟨S32768x512, .f32⟩
  | .hbm, ⟨15, _⟩ => ⟨S32768x512, .f32⟩
  | .hbm, ⟨16, _⟩ => ⟨S1x512, .f32⟩
  | .hbm, ⟨17, _⟩ => ⟨S32768x512, .f32⟩
  | .hbm, ⟨18, _⟩ => ⟨S32768x512, .f32⟩
  | .hbm, ⟨19, _⟩ => ⟨S_, .f32⟩
  | .hbm, ⟨20, _⟩ => ⟨S32768x512, .f32⟩
  | .hbm, ⟨21, _⟩ => ⟨S32768x512, .f32⟩
  | .hbm, ⟨22, _⟩ => ⟨S_, .f32⟩
  | .hbm, ⟨23, _⟩ => ⟨S512, .f32⟩
  | .hbm, ⟨24, _⟩ => ⟨S_, .f32⟩
  | .hbm, ⟨25, _⟩ => ⟨S512, .f32⟩
  | .hbm, ⟨26, _⟩ => ⟨S512, .f32⟩
  | .hbm, ⟨27, _⟩ => ⟨S1x512, .f32⟩
  | .hbm, ⟨28, _⟩ => ⟨S32768x512, .f32⟩
  | .hbm, ⟨29, _⟩ => ⟨S32768x512, .f32⟩
  | .hbm, ⟨30, _⟩ => ⟨S32768x512, .f32⟩
  | .hbm, ⟨31, _⟩ => ⟨S_, .f32⟩
  | .hbm, ⟨32, _⟩ => ⟨S512, .f32⟩
  | .hbm, ⟨33, _⟩ => ⟨S1x512, .f32⟩
  | .hbm, ⟨34, _⟩ => ⟨S32768x512, .f32⟩
  | .hbm, ⟨35, _⟩ => ⟨S32768x512, .f32⟩
  | .hbm, ⟨36, _⟩ => ⟨S512x256, .f32⟩
  | .hbm, ⟨37, _⟩ => ⟨S512x256, .f32⟩
  | .hbm, ⟨38, _⟩ => ⟨S_, .f32⟩
  | .hbm, ⟨39, _⟩ => ⟨S512x256, .f32⟩
  | .hbm, ⟨40, _⟩ => ⟨S512x256, .f32⟩
  | .hbm, ⟨41, _⟩ => ⟨S512x256, .f32⟩
  | .hbm, ⟨42, _⟩ => ⟨S512x256, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]

class Facts₀ : Prop where
  reducesTo_S32768x256_S32768_d1 : S32768x256.ReducesTo [1] S32768
  h_S_ : 0 < S_.numel
  reducesTo_S512x256_S512_d1 : S512x256.ReducesTo [1] S512
  bcast_S32768_S32768x1_0 : S32768.BroadcastsInDim S32768x1 (![0] : Fin 1 → Fin S32768x1.rank)
  bcast_S_S32768x512 : S_.BroadcastsInDim S32768x512 (![] : Fin 0 → Fin S32768x512.rank)
  bcast_S32768x1_S32768x512_0_1 : S32768x1.BroadcastsInDim S32768x512 (![0, 1] : Fin 2 → Fin S32768x512.rank)
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  reducesTo_S32768x512_S512_d0 : S32768x512.ReducesTo [0] S512
  bcast_S_S512 : S_.BroadcastsInDim S512 (![] : Fin 0 → Fin S512.rank)
  bcast_S_S512x256 : S_.BroadcastsInDim S512x256 (![] : Fin 0 → Fin S512x256.rank)
  dot_S32768x256_S512x256_S32768x512_1_1_0_0_n_n_wf : DotDims.WF S32768x256 S512x256 S32768x512 [1] [1] [0] [0] [] []
  dot_S32768x512_S32768x256_S512x256_0_0_1_1_n_n_wf : DotDims.WF S32768x512 S32768x256 S512x256 [0] [0] [1] [1] [] []

variable [Facts₀]

def dot_S32768x256_S512x256_S32768x512_1_1_0_0_n_n : DotDims S32768x256 S512x256 S32768x512 where
  lhsContracting := [1]
  rhsContracting := [1]
  lhsNonContracting := [0]
  rhsNonContracting := [0]
  lhsBatch := []
  rhsBatch := []
  wf := dot_S32768x256_S512x256_S32768x512_1_1_0_0_n_n_wf
def dot_S32768x512_S32768x256_S512x256_0_0_1_1_n_n : DotDims S32768x512 S32768x256 S512x256 where
  lhsContracting := [0]
  rhsContracting := [0]
  lhsNonContracting := [1]
  rhsNonContracting := [1]
  lhsBatch := []
  rhsBatch := []
  wf := dot_S32768x512_S32768x256_S512x256_0_0_1_1_n_n_wf

class Facts : Prop extends Facts₀ where

variable [Facts]
-- ==== Proof.KernelPieces.lean ====
/-
  What one step of the streaming evaluation leaves behind, as functions of what it read.

  At a grid point the kernel body reads the query block, one block of 4096 memory rows and its three running
  quantities (the running maximum of the logits, the running sum of the weights, the running weighted sum of the
  rows), and stores the three updated quantities; at the first point of each half of the memory it first resets them
  (to -∞, 0, 0), and at the last point of each half it also copies them out. The body's run records, for every buffer,
  the list of rectangles it stored with their values; each of those lists is one whole-buffer store (after a
  whole-buffer reset at a first point), so what the buffer holds afterwards is that store's value: the pure terms
  below, in which the values the body loaded are the buffers' contents.
-/
import proofs.«416778_j2147483648715_3_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords)
  (arg2 : Memref sig .tc .vmem S512x256 .f32) (harg2 : arg2.IsWhole) (arg3 : Memref sig .tc .vmem S4096x256 .f32) (harg3 : arg3.IsWhole)
  (arg4 : Memref sig .tc .vmem S1x512x256 .f32) (harg4 : arg4.IsWhole) (arg5 : Memref sig .tc .vmem S1x512x1 .f32) (harg5 : arg5.IsWhole)
  (arg6 : Memref sig .tc .vmem S1x512x1 .f32) (harg6 : arg6.IsWhole) (arg7 : Memref sig .tc .vmem S512x1 .f32) (harg7 : arg7.IsWhole)
  (arg8 : Memref sig .tc .vmem S512x1 .f32) (harg8 : arg8.IsWhole) (arg9 : Memref sig .tc .vmem S512x256 .f32) (harg9 : arg9.IsWhole)

/-- First point of a half: the running maximum after the reset to -∞. -/
theorem max_first (hc0 : cond0_0 i) (hc1 : ¬cond0_1 i) (x0 : Vec F S512x256 .f32) (x1 : Vec F S4096x256 .f32) :
    sout0_A_0 c i arg2 harg2 arg3 harg3 arg4 harg4 arg5 harg5 arg6 harg6 arg7 harg7 arg8 harg8 arg9 harg9 hc0 hc1 x0 x1
      = k0_pay2 (k0_pay11 x1 x0 k0_pay6) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1)]
  unfold kernelRun0_A
  dsimp only
  sl_unfold_words
  rw [View.canon_cons_unit_zero (S := S512x1) hz2]
  simp only [View.readAt_eq_ld, harg2.read_unread, harg3.read_unread, harg7.read_unread, harg8.read_unread, harg9.read_unread,
    View.readCov_unit_zero (S := S512x1) arg7.view hz2, View.readCov_unit_zero (S := S512x1) arg8.view hz2, View.readCov_unit_zero (S := S512x256) arg9.view hz2,
    View.ld_unit_zero (S := S512x256) hz2, View.ld_unit_zero (S := S4096x256) hz2, View.ld_unit_zero (S := S512x1) hz2]

/-- First point of a half: the running sum after the reset to 0. -/
theorem sum_first (hc0 : cond0_0 i) (hc1 : ¬cond0_1 i) (x0 : Vec F S512x256 .f32) (x1 : Vec F S4096x256 .f32) :
    sout0_A_1 c i arg2 harg2 arg3 harg3 arg4 harg4 arg5 harg5 arg6 harg6 arg7 harg7 arg8 harg8 arg9 harg9 hc0 hc1 x0 x1
      = k0_pay15 x1 x0 k0_pay6 k0_pay6 k0_pay7 := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1)]
  unfold kernelRun0_A
  dsimp only
  sl_unfold_words
  rw [View.canon_cons_unit_zero (S := S512x1) hz2]
  simp only [View.readAt_eq_ld, harg2.read_unread, harg3.read_unread, harg7.read_unread, harg8.read_unread, harg9.read_unread,
    View.readCov_unit_zero (S := S512x1) arg7.view hz2, View.readCov_unit_zero (S := S512x1) arg8.view hz2, View.readCov_unit_zero (S := S512x256) arg9.view hz2,
    View.ld_unit_zero (S := S512x256) hz2, View.ld_unit_zero (S := S4096x256) hz2, View.ld_unit_zero (S := S512x1) hz2]

/-- First point of a half: the running weighted sum after the reset to 0. -/
theorem acc_first (hc0 : cond0_0 i) (hc1 : ¬cond0_1 i) (x0 : Vec F S512x256 .f32) (x1 : Vec F S4096x256 .f32) :
    sout0_A_2 c i arg2 harg2 arg3 harg3 arg4 harg4 arg5 harg5 arg6 harg6 arg7 harg7 arg8 harg8 arg9 harg9 hc0 hc1 x0 x1
      = k0_pay1 (k0_pay9 x1) (k0_pay12 x1 x0 k0_pay6 k0_pay6) (k0_pay14 x1 x0 k0_pay6) k0_pay8 := by
  unfold sout0_A_2
  rw [View.read_writes_eq_canon _ _ _ (scover0_A_2 c i arg2 harg2 arg3 harg3 arg4 harg4 arg5 harg5 arg6 harg6 arg7 harg7 arg8 harg8 arg9 harg9 hc0 hc1 x0 x1)]
  unfold kernelRun0_A
  dsimp only
  sl_unfold_words
  rw [View.canon_cons_unit_zero (S := S512x256) hz2]
  simp only [View.readAt_eq_ld, harg2.read_unread, harg3.read_unread, harg7.read_unread, harg8.read_unread, harg9.read_unread,
    View.readCov_unit_zero (S := S512x1) arg7.view hz2, View.readCov_unit_zero (S := S512x1) arg8.view hz2, View.readCov_unit_zero (S := S512x256) arg9.view hz2,
    View.ld_unit_zero (S := S512x256) hz2, View.ld_unit_zero (S := S4096x256) hz2, View.ld_unit_zero (S := S512x1) hz2]

/-- A middle point: the running maximum. -/
theorem max_next (hc0 : ¬cond0_0 i) (hc1 : ¬cond0_1 i) (x0 : Vec F S512x256 .f32) (x1 : Vec F S4096x256 .f32) (xs0 xs1 : Vec F S512x1 .f32) (xs2 : Vec F S512x256 .f32) :
    sout0_B_0 c i arg2 harg2 arg3 harg3 arg4 harg4 arg5 harg5 arg6 harg6 arg7 harg7 arg8 harg8 arg9 harg9 hc0 hc1 x0 x1 xs0 xs1 xs2
      = k0_pay2 (k0_pay11 x1 x0 xs0) := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 xs0 xs1 xs2)]
  unfold kernelRun0_B
  dsimp only
  sl_unfold_words
  rw [View.canon_unit_zero hz2]
  simp only [View.readAt_eq_ld, harg2.read_unread, harg3.read_unread, harg7.read_unread, harg8.read_unread, harg9.read_unread,
    View.readCov_unit_zero (S := S512x1) arg7.view hz2, View.readCov_unit_zero (S := S512x1) arg8.view hz2, View.readCov_unit_zero (S := S512x256) arg9.view hz2,
    View.ld_unit_zero (S := S512x256) hz2, View.ld_unit_zero (S := S4096x256) hz2, View.ld_unit_zero (S := S512x1) hz2]

/-- A middle point: the running sum. -/
theorem sum_next (hc0 : ¬cond0_0 i) (hc1 : ¬cond0_1 i) (x0 : Vec F S512x256 .f32) (x1 : Vec F S4096x256 .f32) (xs0 xs1 : Vec F S512x1 .f32) (xs2 : Vec F S512x256 .f32) :
    sout0_B_1 c i arg2 harg2 arg3 harg3 arg4 harg4 arg5 harg5 arg6 harg6 arg7 harg7 arg8 harg8 arg9 harg9 hc0 hc1 x0 x1 xs0 xs1 xs2
      = k0_pay15 x1 x0 xs0 xs0 xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 xs0 xs1 xs2)]
  unfold kernelRun0_B
  dsimp only
  sl_unfold_words
  rw [View.canon_unit_zero hz2]
  simp only [View.readAt_eq_ld, harg2.read_unread, harg3.read_unread, harg7.read_unread, harg8.read_unread, harg9.read_unread,
    View.readCov_unit_zero (S := S512x1) arg7.view hz2, View.readCov_unit_zero (S := S512x1) arg8.view hz2, View.readCov_unit_zero (S := S512x256) arg9.view hz2,
    View.ld_unit_zero (S := S512x256) hz2, View.ld_unit_zero (S := S4096x256) hz2, View.ld_unit_zero (S := S512x1) hz2]

/-- A middle point: the running weighted sum. -/
theorem acc_next (hc0 : ¬cond0_0 i) (hc1 : ¬cond0_1 i) (x0 : Vec F S512x256 .f32) (x1 : Vec F S4096x256 .f32) (xs0 xs1 : Vec F S512x1 .f32) (xs2 : Vec F S512x256 .f32) :
    sout0_B_2 c i arg2 harg2 arg3 harg3 arg4 harg4 arg5 harg5 arg6 harg6 arg7 harg7 arg8 harg8 arg9 harg9 hc0 hc1 x0 x1 xs0 xs1 xs2
      = k0_pay1 (k0_pay9 x1) (k0_pay12 x1 x0 xs0 xs0) (k0_pay14 x1 x0 xs0) xs2 := by
  unfold sout0_B_2
  rw [View.read_writes_eq_canon _ _ _ (scover0_B_2 c i arg2 harg2 arg3 harg3 arg4 harg4 arg5 harg5 arg6 harg6 arg7 harg7 arg8 harg8 arg9 harg9 hc0 hc1 x0 x1 xs0 xs1 xs2)]
  unfold kernelRun0_B
  dsimp only
  sl_unfold_words
  rw [View.canon_unit_zero hz2]
  simp only [View.readAt_eq_ld, harg2.read_unread, harg3.read_unread, harg7.read_unread, harg8.read_unread, harg9.read_unread,
    View.readCov_unit_zero (S := S512x1) arg7.view hz2, View.readCov_unit_zero (S := S512x1) arg8.view hz2, View.readCov_unit_zero (S := S512x256) arg9.view hz2,
    View.ld_unit_zero (S := S512x256) hz2, View.ld_unit_zero (S := S4096x256) hz2, View.ld_unit_zero (S := S512x1) hz2]

/-- Last point of a half: the running maximum. -/
theorem max_last (hc0 : ¬cond0_0 i) (hc1 : cond0_1 i) (x0 : Vec F S512x256 .f32) (x1 : Vec F S4096x256 .f32) (xs0 xs1 : Vec F S512x1 .f32) (xs2 : Vec F S512x256 .f32) :
    sout0_C_0 c i arg2 harg2 arg3 harg3 arg4 harg4 arg5 harg5 arg6 harg6 arg7 harg7 arg8 harg8 arg9 harg9 hc0 hc1 x0 x1 xs0 xs1 xs2
      = k0_pay2 (k0_pay11 x1 x0 xs0) := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 xs0 xs1 xs2)]
  unfold kernelRun0_C
  dsimp only
  sl_unfold_words
  rw [View.canon_unit_zero hz2]
  simp only [View.readAt_eq_ld, harg2.read_unread, harg3.read_unread, harg7.read_unread, harg8.read_unread, harg9.read_unread,
    View.readCov_unit_zero (S := S512x1) arg7.view hz2, View.readCov_unit_zero (S := S512x1) arg8.view hz2, View.readCov_unit_zero (S := S512x256) arg9.view hz2,
    View.ld_unit_zero (S := S512x256) hz2, View.ld_unit_zero (S := S4096x256) hz2, View.ld_unit_zero (S := S512x1) hz2]

/-- Last point of a half: the running sum. -/
theorem sum_last (hc0 : ¬cond0_0 i) (hc1 : cond0_1 i) (x0 : Vec F S512x256 .f32) (x1 : Vec F S4096x256 .f32) (xs0 xs1 : Vec F S512x1 .f32) (xs2 : Vec F S512x256 .f32) :
    sout0_C_1 c i arg2 harg2 arg3 harg3 arg4 harg4 arg5 harg5 arg6 harg6 arg7 harg7 arg8 harg8 arg9 harg9 hc0 hc1 x0 x1 xs0 xs1 xs2
      = k0_pay15 x1 x0 xs0 xs0 xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 xs0 xs1 xs2)]
  unfold kernelRun0_C
  dsimp only
  sl_unfold_words
  rw [View.canon_unit_zero hz2]
  simp only [View.readAt_eq_ld, harg2.read_unread, harg3.read_unread, harg7.read_unread, harg8.read_unread, harg9.read_unread,
    View.readCov_unit_zero (S := S512x1) arg7.view hz2, View.readCov_unit_zero (S := S512x1) arg8.view hz2, View.readCov_unit_zero (S := S512x256) arg9.view hz2,
    View.ld_unit_zero (S := S512x256) hz2, View.ld_unit_zero (S := S4096x256) hz2, View.ld_unit_zero (S := S512x1) hz2]

/-- Last point of a half: the running weighted sum. -/
theorem acc_last (hc0 : ¬cond0_0 i) (hc1 : cond0_1 i) (x0 : Vec F S512x256 .f32) (x1 : Vec F S4096x256 .f32) (xs0 xs1 : Vec F S512x1 .f32) (xs2 : Vec F S512x256 .f32) :
    sout0_C_2 c i arg2 harg2 arg3 harg3 arg4 harg4 arg5 harg5 arg6 harg6 arg7 harg7 arg8 harg8 arg9 harg9 hc0 hc1 x0 x1 xs0 xs1 xs2
      = k0_pay1 (k0_pay9 x1) (k0_pay12 x1 x0 xs0 xs0) (k0_pay14 x1 x0 xs0) xs2 := by
  unfold sout0_C_2
  rw [View.read_writes_eq_canon _ _ _ (scover0_C_2 c i arg2 harg2 arg3 harg3 arg4 harg4 arg5 harg5 arg6 harg6 arg7 harg7 arg8 harg8 arg9 harg9 hc0 hc1 x0 x1 xs0 xs1 xs2)]
  unfold kernelRun0_C
  dsimp only
  sl_unfold_words
  rw [View.canon_unit_zero hz2]
  simp only [View.readAt_eq_ld, harg2.read_unread, harg3.read_unread, harg7.read_unread, harg8.read_unread, harg9.read_unread,
    View.readCov_unit_zero (S := S512x1) arg7.view hz2, View.readCov_unit_zero (S := S512x1) arg8.view hz2, View.readCov_unit_zero (S := S512x256) arg9.view hz2,
    View.ld_unit_zero (S := S512x256) hz2, View.ld_unit_zero (S := S4096x256) hz2, View.ld_unit_zero (S := S512x1) hz2]

/-- Last point of a half: the weighted sum copied out. -/
theorem emit_acc_last (hc0 : ¬cond0_0 i) (hc1 : cond0_1 i) (x0 : Vec F S512x256 .f32) (x1 : Vec F S4096x256 .f32) (xs0 xs1 : Vec F S512x1 .f32) (xs2 : Vec F S512x256 .f32) :
    out0_C_2 c i arg2 harg2 arg3 harg3 arg4 harg4 arg5 harg5 arg6 harg6 arg7 harg7 arg8 harg8 arg9 harg9 hc0 hc1 x0 x1 xs0 xs1 xs2
      = k0_pay3 (k0_pay1 (k0_pay9 x1) (k0_pay12 x1 x0 xs0 xs0) (k0_pay14 x1 x0 xs0) xs2) := by
  unfold out0_C_2
  rw [View.read_writes_eq_canon _ _ _ (cover0_C_2 c i arg2 harg2 arg3 harg3 arg4 harg4 arg5 harg5 arg6 harg6 arg7 harg7 arg8 harg8 arg9 harg9 hc0 hc1 x0 x1 xs0 xs1 xs2)]
  unfold kernelRun0_C
  dsimp only
  sl_unfold_words
  rw [View.canon_unit_zero hz3]
  simp only [View.readAt_eq_ld, harg2.read_unread, harg3.read_unread, harg7.read_unread, harg8.read_unread, harg9.read_unread,
    View.readCov_unit_zero (S := S512x1) arg7.view hz2, View.readCov_unit_zero (S := S512x1) arg8.view hz2, View.readCov_unit_zero (S := S512x256) arg9.view hz2,
    View.ld_unit_zero (S := S512x256) hz2, View.ld_unit_zero (S := S4096x256) hz2, View.ld_unit_zero (S := S512x1) hz2]

/-- Last point of a half: the maximum copied out. -/
theorem emit_max_last (hc0 : ¬cond0_0 i) (hc1 : cond0_1 i) (x0 : Vec F S512x256 .f32) (x1 : Vec F S4096x256 .f32) (xs0 xs1 : Vec F S512x1 .f32) (xs2 : Vec F S512x256 .f32) :
    out0_C_3 c i arg2 harg2 arg3 harg3 arg4 harg4 arg5 harg5 arg6 harg6 arg7 harg7 arg8 harg8 arg9 harg9 hc0 hc1 x0 x1 xs0 xs1 xs2
      = k0_pay4 (k0_pay2 (k0_pay11 x1 x0 xs0)) := by
  unfold out0_C_3
  rw [View.read_writes_eq_canon _ _ _ (cover0_C_3 c i arg2 harg2 arg3 harg3 arg4 harg4 arg5 harg5 arg6 harg6 arg7 harg7 arg8 harg8 arg9 harg9 hc0 hc1 x0 x1 xs0 xs1 xs2)]
  unfold kernelRun0_C
  dsimp only
  sl_unfold_words
  rw [View.canon_unit_zero hz3]
  simp only [View.readAt_eq_ld, harg2.read_unread, harg3.read_unread, harg7.read_unread, harg8.read_unread, harg9.read_unread,
    View.readCov_unit_zero (S := S512x1) arg7.view hz2, View.readCov_unit_zero (S := S512x1) arg8.view hz2, View.readCov_unit_zero (S := S512x256) arg9.view hz2,
    View.ld_unit_zero (S := S512x256) hz2, View.ld_unit_zero (S := S4096x256) hz2, View.ld_unit_zero (S := S512x1) hz2]

/-- Last point of a half: the sum copied out. -/
theorem emit_sum_last (hc0 : ¬cond0_0 i) (hc1 : cond0_1 i) (x0 : Vec F S512x256 .f32) (x1 : Vec F S4096x256 .f32) (xs0 xs1 : Vec F S512x1 .f32) (xs2 : Vec F S512x256 .f32) :
    out0_C_4 c i arg2 harg2 arg3 harg3 arg4 harg4 arg5 harg5 arg6 harg6 arg7 harg7 arg8 harg8 arg9 harg9 hc0 hc1 x0 x1 xs0 xs1 xs2
      = k0_pay5 (k0_pay15 x1 x0 xs0 xs0 xs1) := by
  unfold out0_C_4
  rw [View.read_writes_eq_canon _ _ _ (cover0_C_4 c i arg2 harg2 arg3 harg3 arg4 harg4 arg5 harg5 arg6 harg6 arg7 harg7 arg8 harg8 arg9 harg9 hc0 hc1 x0 x1 xs0 xs1 xs2)]
  unfold kernelRun0_C
  dsimp only
  sl_unfold_words
  rw [View.canon_unit_zero hz3]
  simp only [View.readAt_eq_ld, harg2.read_unread, harg3.read_unread, harg7.read_unread, harg8.read_unread, harg9.read_unread,
    View.readCov_unit_zero (S := S512x1) arg7.view hz2, View.readCov_unit_zero (S := S512x1) arg8.view hz2, View.readCov_unit_zero (S := S512x256) arg9.view hz2,
    View.ld_unit_zero (S := S512x256) hz2, View.ld_unit_zero (S := S4096x256) hz2, View.ld_unit_zero (S := S512x1) hz2]

end Cert.KernelIdeal.Pieces
end
-- ==== Proof.KernelPoints.lean ====
/-
  The three running quantities after each grid point, as functions of the point's blocks and of what the point
  before left.

  The grid has 8 points; points 0 and 4 begin a half of the memory (the running quantities are reset first), points
  3 and 7 end one (the running quantities are also copied out). Whatever the point, the new running maximum, running
  sum and running weighted sum are the same three pure functions of the query block, the memory block, and the
  quantities carried in: the reset values at a first point, what the previous point left otherwise.
-/
import proofs.«416778_j2147483648715_3_alg».proof.Proof.KernelPieces

set_option maxRecDepth 16384

noncomputable section

open Idealize.ShloMosaic Idealize.ShloMosaic.TcCoe Idealize.SL.Sem
open Idealize.ShloMosaic.Pipeline (Dat)

namespace Cert.KernelIdeal.Points

open Cert.KernelIdeal Cert.KernelIdeal.Gen

variable {F : FTy → Type} [FloatOps F]
variable (m : (ℓ : Loc nD τ sig) → Buf (Elt F) ℓ) (c : Dev nD)

/-- The query block at point `t`. -/
abbrev qblk (t : Fin cfg0.N) : Vec F S512x256 .f32 := iblk m c 0 t
/-- The memory block at point `t`. -/
abbrev mblk (t : Fin cfg0.N) : Vec F S4096x256 .f32 := iblk m c 1 t

/-- The running maximum after the first point of a half. -/
theorem max_at_first (t : Fin cfg0.N) (h0 : t.val % 4 = 0) :
    (outsAt0 m c t.val t.isLt).2.2.2.1 = k0_pay2 (k0_pay11 (mblk m c t) (qblk m c t) k0_pay6) := by
  have h1 : ¬t.val % 4 = 3 := by omega
  rw [outsAt0_A m c t h0 h1]
  dsimp only
  exact Pieces.max_first (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t)

/-- The running sum after the first point of a half. -/
theorem sum_at_first (t : Fin cfg0.N) (h0 : t.val % 4 = 0) :
    (outsAt0 m c t.val t.isLt).2.2.2.2.1 = k0_pay15 (mblk m c t) (qblk m c t) k0_pay6 k0_pay6 k0_pay7 := by
  have h1 : ¬t.val % 4 = 3 := by omega
  rw [outsAt0_A m c t h0 h1]
  dsimp only
  exact Pieces.sum_first (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t)

/-- The running weighted sum after the first point of a half. -/
theorem acc_at_first (t : Fin cfg0.N) (h0 : t.val % 4 = 0) :
    (outsAt0 m c t.val t.isLt).2.2.2.2.2 = k0_pay1 (k0_pay9 (mblk m c t)) (k0_pay12 (mblk m c t) (qblk m c t) k0_pay6 k0_pay6) (k0_pay14 (mblk m c t) (qblk m c t) k0_pay6) k0_pay8 := by
  have h1 : ¬t.val % 4 = 3 := by omega
  rw [outsAt0_A m c t h0 h1]
  dsimp only
  exact Pieces.acc_first (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t)

/-- The running maximum after a later point, from what the point before left. -/
theorem max_at_next (t : Fin cfg0.N) (h0 : ¬t.val % 4 = 0) :
    (outsAt0 m c t.val t.isLt).2.2.2.1 = k0_pay2 (k0_pay11 (mblk m c t) (qblk m c t) (outsAt0 m c (t.val - 1) (Nat.lt_of_le_of_lt (Nat.sub_le _ _) t.isLt)).2.2.2.1) := by
  by_cases h1 : t.val % 4 = 3
  · rw [outsAt0_C m c t h0 h1]
    dsimp only
    exact Pieces.max_last (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2
  · rw [outsAt0_B m c t h0 h1]
    dsimp only
    exact Pieces.max_next (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2

/-- The running sum after a later point, from what the point before left. -/
theorem sum_at_next (t : Fin cfg0.N) (h0 : ¬t.val % 4 = 0) :
    (outsAt0 m c t.val t.isLt).2.2.2.2.1 = k0_pay15 (mblk m c t) (qblk m c t) (outsAt0 m c (t.val - 1) (Nat.lt_of_le_of_lt (Nat.sub_le _ _) t.isLt)).2.2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 := by
  by_cases h1 : t.val % 4 = 3
  · rw [outsAt0_C m c t h0 h1]
    dsimp only
    exact Pieces.sum_last (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2
  · rw [outsAt0_B m c t h0 h1]
    dsimp only
    exact Pieces.sum_next (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2

/-- The running weighted sum after a later point, from what the point before left. -/
theorem acc_at_next (t : Fin cfg0.N) (h0 : ¬t.val % 4 = 0) :
    (outsAt0 m c t.val t.isLt).2.2.2.2.2 = k0_pay1 (k0_pay9 (mblk m c t)) (k0_pay12 (mblk m c t) (qblk m c t) (outsAt0 m c (t.val - 1) (Nat.lt_of_le_of_lt (Nat.sub_le _ _) t.isLt)).2.2.2.1 (outsAt0 m c (t.val - 1) (Nat.lt_of_le_of_lt (Nat.sub_le _ _) t.isLt)).2.2.2.1) (k0_pay14 (mblk m c t) (qblk m c t) (outsAt0 m c (t.val - 1) (Nat.lt_of_le_of_lt (Nat.sub_le _ _) t.isLt)).2.2.2.1) (outsAt0 m c (t.val - 1) (Nat.lt_of_le_of_lt (Nat.sub_le _ _) t.isLt)).2.2.2.2.2 := by
  by_cases h1 : t.val % 4 = 3
  · rw [outsAt0_C m c t h0 h1]
    dsimp only
    exact Pieces.acc_last (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2
  · rw [outsAt0_B m c t h0 h1]
    dsimp only
    exact Pieces.acc_next (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2

/-- What the last point of a half copies out for the weighted sum. -/
theorem acc_emitted (t : Fin cfg0.N) (h1 : t.val % 4 = 3) :
    (outsAt0 m c t.val t.isLt).1 = k0_pay3 (k0_pay1 (k0_pay9 (mblk m c t)) (k0_pay12 (mblk m c t) (qblk m c t) (outsAt0 m c (t.val - 1) (Nat.lt_of_le_of_lt (Nat.sub_le _ _) t.isLt)).2.2.2.1 (outsAt0 m c (t.val - 1) (Nat.lt_of_le_of_lt (Nat.sub_le _ _) t.isLt)).2.2.2.1) (k0_pay14 (mblk m c t) (qblk m c t) (outsAt0 m c (t.val - 1) (Nat.lt_of_le_of_lt (Nat.sub_le _ _) t.isLt)).2.2.2.1) (outsAt0 m c (t.val - 1) (Nat.lt_of_le_of_lt (Nat.sub_le _ _) t.isLt)).2.2.2.2.2) := by
  have h0 : ¬t.val % 4 = 0 := by omega
  rw [outsAt0_C m c t h0 h1]
  dsimp only
  exact Pieces.emit_acc_last (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2

/-- What the last point of a half copies out for the maximum. -/
theorem max_emitted (t : Fin cfg0.N) (h1 : t.val % 4 = 3) :
    (outsAt0 m c t.val t.isLt).2.1 = k0_pay4 (k0_pay2 (k0_pay11 (mblk m c t) (qblk m c t) (outsAt0 m c (t.val - 1) (Nat.lt_of_le_of_lt (Nat.sub_le _ _) t.isLt)).2.2.2.1)) := by
  have h0 : ¬t.val % 4 = 0 := by omega
  rw [outsAt0_C m c t h0 h1]
  dsimp only
  exact Pieces.emit_max_last (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2

/-- What the last point of a half copies out for the sum. -/
theorem sum_emitted (t : Fin cfg0.N) (h1 : t.val % 4 = 3) :
    (outsAt0 m c t.val t.isLt).2.2.1 = k0_pay5 (k0_pay15 (mblk m c t) (qblk m c t) (outsAt0 m c (t.val - 1) (Nat.lt_of_le_of_lt (Nat.sub_le _ _) t.isLt)).2.2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1) := by
  have h0 : ¬t.val % 4 = 0 := by omega
  rw [outsAt0_C m c t h0 h1]
  dsimp only
  exact Pieces.emit_sum_last (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2

end Cert.KernelIdeal.Points
end
-- ==== Proof.RealEntries.lean ====
/-
  Arrays of real numbers read as arrays of extended reals, and the few facts about the extended reals the
  proof needs: the coercion ℝ → [-∞, +∞] commutes with finite sums; the exponential, the quotient by a
  non-zero real and the maximum of reals are the real ones; a maximum taken from -∞ over a non-empty finite
  family of reals is a real; and the values of the five binary32 literals the two programs use.
-/
import Idealize.ShloMosaic.PureOps.Ideal
import Idealize.ShloMosaic.PureOps.Ideal.Laws
import Idealize.ShloMosaic.Lib.ValueIdx
import Mathlib.Data.EReal.Operations
import Mathlib.Data.Finset.Fold
import Mathlib.Data.EReal.Inv
import Mathlib.Analysis.SpecialFunctions.Exp

noncomputable section

open scoped BigOperators
open Idealize.ShloMosaic

namespace RealEntries

/-- A vector of reals as a rank-1 array of extended reals. -/
def lift1 {a : ℕ} (f : Fin a → ℝ) : (⟨1, ![a]⟩ : Shape).Idx → EReal := fun y => (f (y 0) : EReal)
/-- A matrix of reals as a rank-2 array of extended reals. -/
def lift2 {a b : ℕ} (f : Fin a → Fin b → ℝ) : (⟨2, ![a, b]⟩ : Shape).Idx → EReal := fun y => (f (y 0) (y 1) : EReal)
/-- A vector of reals as a one-column matrix of extended reals. -/
def col {a : ℕ} (f : Fin a → ℝ) : (⟨2, ![a, 1]⟩ : Shape).Idx → EReal := fun y => (f (y 0) : EReal)
/-- A rank-3 array of reals as a rank-3 array of extended reals. -/
def lift3 {a b c : ℕ} (f : Fin a → Fin b → Fin c → ℝ) : (⟨3, ![a, b, c]⟩ : Shape).Idx → EReal :=
  fun y => (f (y 0) (y 1) (y 2) : EReal)

/-- The coercion of the reals into the extended reals commutes with finite sums. -/
theorem coe_sum {ι : Type} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- A real divided by a non-zero real, as extended reals, is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

/-- The maximum of two reals, as extended reals. -/
theorem max_coe_coe (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- A maximum taken from -∞ over a non-empty finite family of reals is a real. -/
theorem fold_max_bot_real {n : ℕ} (hn : 0 < n) (g : Fin n → EReal) (f : Fin n → ℝ) (hg : ∀ k, g k = (f k : EReal)) :
    ∃ r : ℝ, (Finset.univ : Finset (Fin n)).fold max (⊥ : EReal) g = (r : EReal) := by
  set x := (Finset.univ : Finset (Fin n)).fold max (⊥ : EReal) g with hx
  have htop : x ≠ ⊤ := by
    have : x < ⊤ := (Finset.fold_max_lt _).mpr ⟨bot_lt_top, fun k _ => by rw [hg k]; exact EReal.coe_lt_top _⟩
    exact this.ne
  have hbot : x ≠ ⊥ := by
    have h0 : g ⟨0, hn⟩ ≤ x := (Finset.le_fold_max _).mpr (Or.inr ⟨⟨0, hn⟩, Finset.mem_univ _, le_refl _⟩)
    have : (⊥ : EReal) < x := lt_of_lt_of_le (by rw [hg]; exact EReal.bot_lt_coe _) h0
    exact this.ne'
  exact ⟨x.toReal, (EReal.coe_toReal htop hbot).symm⟩

/-! ### The literals -/

theorem ofBits_zero : Ideal.ofBits .f32 0x00000000#32 = ((0 : ℝ) : EReal) := by
  simp [Ideal.ofBits, Ideal.ieee]
theorem ofBits_one : Ideal.ofBits .f32 0x3F800000#32 = ((1 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_half : Ideal.ofBits .f32 0x3F000000#32 = ((1 / 2 : ℝ) : EReal) := by
  simp [Ideal.ofBits, Ideal.ieee, -EReal.coe_mul]; norm_num
theorem ofBits_neg_half : Ideal.ofBits .f32 0xBF000000#32 = ((-(1 / 2) : ℝ) : EReal) := by
  simp [Ideal.ofBits, Ideal.ieee, -EReal.coe_mul]; norm_num
theorem ofBits_neg_inf : Ideal.ofBits .f32 0xFF800000#32 = (⊥ : EReal) := by
  simp [Ideal.ofBits, Ideal.ieee]

end RealEntries

end
-- ==== Proof.Retrieval.lean ====
/-
  The mathematics both programs compute, over the real numbers.

  A query row `v b` (of D entries) retrieves from a memory of R rows `M n` the average of the rows
  weighted by a Gaussian kernel: the weight of row n is proportional to exp(-‖M n - v b‖² / 2). Expanding the
  square, -‖M n - v b‖²/2 = (⟨v b, M n⟩ - ‖M n‖²/2) - ‖v b‖²/2, and the last term does not depend on n,
  so it cancels between the weighted sum and its normaliser. We call `logit b n = ⟨v b, M n⟩ - ‖M n‖²/2`.

  For a set A of memory rows and a reference point μ, `mass μ A = ∑_{n ∈ A} exp(logit n - μ)` and
  `moment μ A = ∑_{n ∈ A} exp(logit n - μ) · M n d`. Changing the reference point from μ to μ' multiplies both by
  exp(μ - μ'); both are additive over disjoint sets of rows; so the quotient moment / mass over ALL rows does not
  depend on μ at all: it is the retrieved vector. A streaming evaluation may therefore move its reference point
  (a running maximum of the logits, for instance) whenever it rescales what it has accumulated, and two partial
  evaluations over disjoint halves of the memory are combined by bringing both to a common reference point.
-/
import Mathlib.Analysis.SpecialFunctions.Exp
import Mathlib.Algebra.BigOperators.Field

noncomputable section

open scoped BigOperators

namespace Retrieval

variable {B D R : ℕ}

/-- ⟨v b, M n⟩ - ‖M n‖² / 2 -/
def logit (v : Fin B → Fin D → ℝ) (M : Fin R → Fin D → ℝ) (b : Fin B) (n : Fin R) : ℝ :=
  (∑ d, v b d * M n d) - (∑ d, M n d * M n d) / 2

/-- The total weight of the rows in `A`, relative to the reference point `μ`. -/
def mass (v : Fin B → Fin D → ℝ) (M : Fin R → Fin D → ℝ) (b : Fin B) (μ : ℝ) (A : Finset (Fin R)) : ℝ :=
  ∑ n ∈ A, Real.exp (logit v M b n - μ)

/-- The weighted sum of coordinate `d` of the rows in `A`, relative to the reference point `μ`. -/
def moment (v : Fin B → Fin D → ℝ) (M : Fin R → Fin D → ℝ) (b : Fin B) (d : Fin D) (μ : ℝ) (A : Finset (Fin R)) : ℝ :=
  ∑ n ∈ A, Real.exp (logit v M b n - μ) * M n d

/-- The retrieved vector: the weighted average of the memory rows. -/
def retrieved (v : Fin B → Fin D → ℝ) (M : Fin R → Fin D → ℝ) (b : Fin B) (d : Fin D) : ℝ :=
  moment v M b d 0 Finset.univ / mass v M b 0 Finset.univ

/-- The update: the query moved half way toward what it retrieves, gated entry by entry. -/
def updated (v k : Fin B → Fin D → ℝ) (M : Fin R → Fin D → ℝ) (b : Fin B) (d : Fin D) : ℝ :=
  v b d + (1 / 2 * (retrieved v M b d - v b d)) * k b d

variable (v : Fin B → Fin D → ℝ) (M : Fin R → Fin D → ℝ) (b : Fin B) (d : Fin D)

/-- Moving the reference point rescales the mass. -/
theorem mass_rescale (μ μ' : ℝ) (A : Finset (Fin R)) :
    Real.exp (μ - μ') * mass v M b μ A = mass v M b μ' A := by
  unfold mass
  rw [Finset.mul_sum]
  refine Finset.sum_congr rfl fun n _ => ?_
  rw [← Real.exp_add]
  congr 1; ring

/-- Moving the reference point rescales the moment. -/
theorem moment_rescale (μ μ' : ℝ) (A : Finset (Fin R)) :
    Real.exp (μ - μ') * moment v M b d μ A = moment v M b d μ' A := by
  unfold moment
  rw [Finset.mul_sum]
  refine Finset.sum_congr rfl fun n _ => ?_
  rw [← mul_assoc, ← Real.exp_add]
  congr 2; ring

theorem mass_union (μ : ℝ) {A A' : Finset (Fin R)} (h : Disjoint A A') :
    mass v M b μ (A ∪ A') = mass v M b μ A + mass v M b μ A' := by
  unfold mass; exact Finset.sum_union h

theorem moment_union (μ : ℝ) {A A' : Finset (Fin R)} (h : Disjoint A A') :
    moment v M b d μ (A ∪ A') = moment v M b d μ A + moment v M b d μ A' := by
  unfold moment; exact Finset.sum_union h

theorem mass_empty (μ : ℝ) : mass v M b μ ∅ = 0 := by unfold mass; exact Finset.sum_empty
theorem moment_empty (μ : ℝ) : moment v M b d μ ∅ = 0 := by unfold moment; exact Finset.sum_empty

/-- A non-empty set of rows has positive mass. -/
theorem mass_pos (μ : ℝ) {A : Finset (Fin R)} (hA : A.Nonempty) : 0 < mass v M b μ A := by
  unfold mass
  exact Finset.sum_pos (fun n _ => Real.exp_pos _) hA

/-- The quotient over all rows does not depend on the reference point. -/
theorem quotient_eq_retrieved [NeZero R] (μ : ℝ) :
    moment v M b d μ Finset.univ / mass v M b μ Finset.univ = retrieved v M b d := by
  unfold retrieved
  have hne : (Finset.univ : Finset (Fin R)).Nonempty := ⟨⟨0, Nat.pos_of_ne_zero (NeZero.ne R)⟩, Finset.mem_univ _⟩
  have h0 : mass v M b 0 Finset.univ ≠ 0 := (mass_pos v M b 0 hne).ne'
  have hμ : mass v M b μ Finset.univ ≠ 0 := (mass_pos v M b μ hne).ne'
  rw [div_eq_div_iff hμ h0, ← moment_rescale v M b d 0 μ, ← mass_rescale v M b 0 μ]
  ring

/-- The reference's form: each weight normalised first, then the weighted sum; the logits shifted by any
    amount `s` that is the same for all rows, and any reference point. -/
theorem normalised_sum_eq_retrieved [NeZero R] (s μ : ℝ) :
    (∑ n, Real.exp ((logit v M b n + s) - μ) / (∑ k, Real.exp ((logit v M b k + s) - μ)) * M n d)
      = retrieved v M b d := by
  rw [← quotient_eq_retrieved v M b d (μ - s)]
  unfold moment mass
  rw [Finset.sum_div]
  refine Finset.sum_congr rfl fun n _ => ?_
  have e : ∀ k, logit v M b k + s - μ = logit v M b k - (μ - s) := fun k => by ring
  simp only [e]
  ring

end Retrieval

end
-- ==== Proof.StepWeights.lean ====
/-
  One step of the streaming evaluation, read entry by entry on arrays of reals.

  For a tile of 4096 memory rows `T i` and 512 query rows `v b` (256 coordinates each) the body computes
    the logits               1 · ⟨v b, T i⟩ + (∑_d (T i d)²) · (-½)  =  ⟨v b, T i⟩ - ‖T i‖² / 2,
    the new running maximum  max (old maximum b) (max_i logit b i), the inner maximum taken from -∞ over the 4096 rows,
    the weights              exp (logit b i - new maximum b),
    the rescaling factor     exp (old maximum b - new maximum b).
  On real inputs each of these is a real: the logits by arithmetic; the new maximum because a maximum taken
  from -∞ over a non-empty finite family of reals is a real, and against an old maximum that is -∞ or a real it
  stays one; the weights and the factor as exponentials of real differences. The one exception is the factor from
  an old maximum -∞: -∞ minus a real is -∞ and exp (-∞) = 0.

  The squared norms reach the logits through a sum over the 256 coordinates, a cast of the 4096 sums to a column,
  its transpose to a row, and that row repeated over the 512 queries; the inner products are a matrix product
  `v · Tᵀ` accumulated into zero; changes of number format are the identity on extended reals. Each of these is read
  at one index below, and the results are assembled in ℝ.
-/
import proofs.«416778_j2147483648715_3_alg».proof.Proof.Gen.KernelIdeal.Frame
import proofs.«416778_j2147483648715_3_alg».proof.Proof.RealEntries
import proofs.«416778_j2147483648715_3_alg».proof.Proof.Retrieval
import Idealize.ShloMosaic.Lib.Pipeline.Value
import Idealize.ShloMosaic.Lib.ValueIdx
import Idealize.ShloMosaic.Lib.ValueLayout
import Idealize.ShloMosaic.PureOps.Ideal.Laws

noncomputable section
open scoped BigOperators
open Idealize.ShloMosaic Idealize.ShloMosaic.ValueIdx Cert.KernelIdeal Cert.KernelIdeal.Gen RealEntries Retrieval

namespace Cert.KernelIdeal.Step

namespace StepWeights

/-! ### Layout operations at an index: the column forms -/

/-- An `[a]` array cast to the column `[a, 1]` reads, at `(i, u)`, the operand at `i`: both have row-major
    position `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` repeated to `[a, b]` reads, at `(p, c)`, the column's entry at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ### The sum and the maximum over the second axis, at an index -/

/-- The sum over the 256 coordinates of a `[4096, 256]` array, at row `i`. -/
theorem laneSum_apply (X : FVec Ideal S4096x256 .f32) (h : S4096x256.Reduces [1] S4096) (hφ : FKind.Formats .f32)
    (hacc : (0x00000000#32 : BitVec 32) = FKind.add.neutral .f32 hφ) (i : Fin 4096) :
    multiReduction .add [1] S4096 X 0x00000000#32 h hφ hacc (ix1 i) = ∑ d : Fin 256, X (ix2 i d) := by
  refine (Ideal.multiReduction_add_single X 0x00000000#32 h hφ hacc (ix1 i)).trans ?_
  refine Finset.sum_congr rfl fun d _ => congrArg X (funext fun ax => Fin.ext ?_)
  match ax with
  | ⟨0, _⟩ => rfl
  | ⟨1, _⟩ => rfl

/-- The maximum over the 4096 columns of a `[512, 4096]` array, taken from -∞, at row `b`. -/
theorem laneMax_apply (X : FVec Ideal S512x4096 .f32) (h : S512x4096.Reduces [1] S512) (hφ : FKind.Formats .f32)
    (hacc : (0xFF800000#32 : BitVec 32) = FKind.maximumf.neutral .f32 hφ) (b : Fin 512) :
    multiReduction .maximumf [1] S512 X 0xFF800000#32 h hφ hacc (ix1 b)
      = (Finset.univ : Finset (Fin 4096)).fold max (⊥ : EReal) (fun i => X (ix2 b i)) := by
  refine (Ideal.multiReduction_maximumf_single X 0xFF800000#32 h hφ hacc (ix1 b)).trans ?_
  have e0 : (FloatOps.ofBits (F := Ideal) .f32 0xFF800000#32 : EReal) = ⊥ := ofBits_neg_inf
  have e1 : (X ∘ h.lift (ix1 b)) = fun i : Fin 4096 => X (ix2 b i) := funext fun i =>
    congrArg X (funext fun ax => Fin.ext (by
      match ax with
      | ⟨0, _⟩ => rfl
      | ⟨1, _⟩ => rfl))
  rw [e0, e1]
  rfl

/-! ### The matrix product at an index

The product contracts the second axis of both operands: the left operand is read at (row of the result,
contraction position), the right one at (column of the result, contraction position). -/

theorem dotL_0 (j : S512x4096.Idx) (q : dot_S512x256_S4096x256_S512x4096_1_1_0_0_n_n.contr.Idx) :
    (dot_S512x256_S4096x256_S512x4096_1_1_0_0_n_n.lhsIdx j q 0).val = (j 0).val := by
  unfold DotDims.lhsIdx
  rw [dif_neg (show ¬(0 : Fin S512x256.rank) ∈ dot_S512x256_S4096x256_S512x4096_1_1_0_0_n_n.lhsBatch by decide), dif_pos (show (0 : Fin S512x256.rank) ∈ dot_S512x256_S4096x256_S512x4096_1_1_0_0_n_n.lhsNonContracting by decide)]
  rfl
theorem dotL_1 (j : S512x4096.Idx) (q : dot_S512x256_S4096x256_S512x4096_1_1_0_0_n_n.contr.Idx) :
    (dot_S512x256_S4096x256_S512x4096_1_1_0_0_n_n.lhsIdx j q 1).val = (q ⟨0, by decide⟩).val :=
  dot_S512x256_S4096x256_S512x4096_1_1_0_0_n_n.lhsIdx_val_of_single rfl j q
theorem dotR_0 (j : S512x4096.Idx) (q : dot_S512x256_S4096x256_S512x4096_1_1_0_0_n_n.contr.Idx) :
    (dot_S512x256_S4096x256_S512x4096_1_1_0_0_n_n.rhsIdx j q 0).val = (j 1).val := by
  unfold DotDims.rhsIdx
  rw [dif_neg (show ¬(0 : Fin S4096x256.rank) ∈ dot_S512x256_S4096x256_S512x4096_1_1_0_0_n_n.rhsBatch by decide), dif_pos (show (0 : Fin S4096x256.rank) ∈ dot_S512x256_S4096x256_S512x4096_1_1_0_0_n_n.rhsNonContracting by decide)]
  rfl
theorem dotR_1 (j : S512x4096.Idx) (q : dot_S512x256_S4096x256_S512x4096_1_1_0_0_n_n.contr.Idx) :
    (dot_S512x256_S4096x256_S512x4096_1_1_0_0_n_n.rhsIdx j q 1).val = (q ⟨0, by decide⟩).val :=
  dot_S512x256_S4096x256_S512x4096_1_1_0_0_n_n.rhsIdx_val_of_single rfl j q

/-- The product `A · Bᵀ` accumulated into zero, at `(b, i)`: the sum over the 256 shared coordinates of
    `A b d · B i d`. -/
theorem matmul_apply_ix (A : FVec Ideal S512x256 .bf16) (B : FVec Ideal S4096x256 .bf16) (b : Fin 512) (i : Fin 4096) :
    matmul dot_S512x256_S4096x256_S512x4096_1_1_0_0_n_n none A B (constant (F := Ideal) S512x4096 .f32 0x00000000#32) (ix2 b i)
      = ∑ d : Fin 256, A (ix2 b d) * B (ix2 i d) := by
  simp only [matmul]
  rw [Ideal.matmul_constant_zero_apply, ← Equiv.sum_comp (contrEquiv1 dot_S512x256_S4096x256_S512x4096_1_1_0_0_n_n 256 rfl rfl).symm]
  refine Finset.sum_congr rfl fun k _ => ?_
  have hk := contrEquiv1_symm_val dot_S512x256_S4096x256_S512x4096_1_1_0_0_n_n 256 rfl rfl k
  have el : dot_S512x256_S4096x256_S512x4096_1_1_0_0_n_n.lhsIdx (ix2 b i) ((contrEquiv1 dot_S512x256_S4096x256_S512x4096_1_1_0_0_n_n 256 rfl rfl).symm k) = ix2 b k := funext fun a => Fin.ext (by
    match a with
    | ⟨0, _⟩ => exact dotL_0 _ _
    | ⟨1, _⟩ => exact (dotL_1 _ _).trans hk)
  have er : dot_S512x256_S4096x256_S512x4096_1_1_0_0_n_n.rhsIdx (ix2 b i) ((contrEquiv1 dot_S512x256_S4096x256_S512x4096_1_1_0_0_n_n 256 rfl rfl).symm k) = ix2 i k := funext fun a => Fin.ext (by
    match a with
    | ⟨0, _⟩ => exact dotR_0 _ _
    | ⟨1, _⟩ => exact (dotR_1 _ _).trans hk)
  rw [el, er]

end StepWeights

open StepWeights

variable (v : Fin 512 → Fin 256 → ℝ) (T : Fin 4096 → Fin 256 → ℝ)

/-! ### The tile's logits -/

/-- (a1) the tile's logits: `1 · ⟨v b, T i⟩ + ‖T i‖² · (-½) = ⟨v b, T i⟩ - ‖T i‖² / 2`. -/
theorem logits_eq : k0_pay10 (F := Ideal) (lift2 T) (lift2 v) = lift2 (fun b i => logit v T b i) := by
  funext j
  obtain ⟨b, i, rfl⟩ : ∃ (b : Fin 512) (i : Fin 4096), j = ix2 b i := ⟨j 0, j 1, eq_ix2 j⟩
  unfold k0_pay10 k0_pay9
  -- the sum of the product and of the repeated row, each operation read at its index
  rw [addf_apply, mulf_apply, broadcast_apply, matmul_apply_ix, broadcastTo_1b_ab_apply, mulf_apply, broadcast_apply,
    transpose_ix2_apply, shapeCast_a_a1_apply]
  refine (congrArg (fun z : EReal => _ + z * _) (laneSum_apply _ _ _ _ i)).trans ?_
  -- the entries are reals; a change of number format is the identity
  show (FloatOps.ofBits (F := Ideal) .f32 0x3F800000#32 : EReal) * (∑ d : Fin 256, (v b d : EReal) * (T i d : EReal))
      + (∑ d : Fin 256, (T i d : EReal) * (T i d : EReal)) * (FloatOps.ofBits (F := Ideal) .f32 0xBF000000#32 : EReal)
      = ((logit v T b i : ℝ) : EReal)
  have e1 : (FloatOps.ofBits (F := Ideal) .f32 0x3F800000#32 : EReal) = ((1 : ℝ) : EReal) := ofBits_one
  have e2 : (FloatOps.ofBits (F := Ideal) .f32 0xBF000000#32 : EReal) = ((-(1 / 2) : ℝ) : EReal) := ofBits_neg_half
  have hA : (∑ d : Fin 256, (v b d : EReal) * (T i d : EReal)) = ((∑ d, v b d * T i d : ℝ) : EReal) := by
    rw [coe_sum]; exact Finset.sum_congr rfl fun d _ => (EReal.coe_mul _ _).symm
  have hB : (∑ d : Fin 256, (T i d : EReal) * (T i d : EReal)) = ((∑ d, T i d * T i d : ℝ) : EReal) := by
    rw [coe_sum]; exact Finset.sum_congr rfl fun d _ => (EReal.coe_mul _ _).symm
  rw [hA, hB, e1, e2, ← EReal.coe_mul, ← EReal.coe_mul, ← EReal.coe_add]
  -- in ℝ: 1 · x + y · (-½) = x - y / 2
  refine congrArg (fun r : ℝ => (r : EReal)) ?_
  unfold logit
  ring

/-! ### The running maximum -/

/-- The new running maximum at row `b`: the old one against the largest logit of the tile's rows. -/
theorem StepWeights.newmax_apply (m0 : Vec Ideal S512x1 .f32) (b : Fin 512) (u : Fin 1) :
    k0_pay11 (F := Ideal) (lift2 T) (lift2 v) m0 (ix2 b u)
      = max (m0 (ix2 b u)) ((Finset.univ : Finset (Fin 4096)).fold max (⊥ : EReal) (fun i => ((logit v T b i : ℝ) : EReal))) := by
  unfold k0_pay11
  rw [maximumf_apply, shapeCast_a_a1_apply]
  refine (congrArg (max (m0 (ix2 b u))) (laneMax_apply (k0_pay10 (F := Ideal) (lift2 T) (lift2 v)) _ _ _ b)).trans ?_
  rw [logits_eq]
  rfl

/-- (a2) the new running maximum is real when the old one is -∞ or real -/
theorem newmax_real (m0 : Vec Ideal S512x1 .f32) (h : ∀ y, m0 y = ⊥ ∨ ∃ r : ℝ, m0 y = (r : EReal)) :
    ∃ μ' : Fin 512 → ℝ, k0_pay11 (F := Ideal) (lift2 T) (lift2 v) m0 = col μ' := by
  -- the largest logit of a row is a real: a maximum from -∞ over 4096 reals
  have hfold : ∀ b : Fin 512, ∃ r : ℝ,
      (Finset.univ : Finset (Fin 4096)).fold max (⊥ : EReal) (fun i => ((logit v T b i : ℝ) : EReal)) = (r : EReal) :=
    fun b => fold_max_bot_real (by norm_num) _ (fun i => logit v T b i) (fun _ => rfl)
  choose r hr using hfold
  -- against -∞ it stays; against a real it is the maximum of two reals
  have hpt : ∀ b : Fin 512, ∃ s : ℝ, max (m0 (ix2 b (0 : Fin 1))) (r b : EReal) = (s : EReal) := fun b => by
    rcases h (ix2 b (0 : Fin 1)) with h0 | ⟨r0, h0⟩
    · exact ⟨r b, by rw [h0, max_eq_right bot_le]⟩
    · exact ⟨max r0 (r b), by rw [h0, max_coe_coe]⟩
  choose s hs using hpt
  refine ⟨s, funext fun j => ?_⟩
  obtain ⟨b, u, rfl⟩ : ∃ (b : Fin 512) (u : Fin 1), j = ix2 b u := ⟨j 0, j 1, eq_ix2 j⟩
  obtain rfl : u = 0 := Subsingleton.elim _ _
  rw [StepWeights.newmax_apply, hr, hs]
  rfl

/-! ### The weights and the rescaling factor -/

/-- (a3) the tile's weights relative to the new maximum -/
theorem weights_eq (m0 : Vec Ideal S512x1 .f32) (μ' : Fin 512 → ℝ)
    (hμ' : k0_pay11 (F := Ideal) (lift2 T) (lift2 v) m0 = col μ') :
    k0_pay13 (F := Ideal) (lift2 T) (lift2 v) m0 = lift2 (fun b i => Real.exp (logit v T b i - μ' b)) := by
  funext j
  obtain ⟨b, i, rfl⟩ : ∃ (b : Fin 512) (i : Fin 4096), j = ix2 b i := ⟨j 0, j 1, eq_ix2 j⟩
  unfold k0_pay13
  rw [hμ', logits_eq]
  show Ideal.exp (lift2 (fun b i => logit v T b i) (ix2 b i)
      - broadcastTo S512x4096 (col μ') broadcasts_S512x1_S512x4096 (ix2 b i)) = _
  rw [broadcastTo_a1_ab_apply]
  -- the exponential of a difference of reals is the real exponential
  show Ideal.exp ((logit v T b i : EReal) - (μ' b : EReal)) = ((Real.exp (logit v T b i - μ' b) : ℝ) : EReal)
  rw [← EReal.coe_sub]
  rfl

/-- (a4) the rescaling factor, from a real old maximum -/
theorem scale_of_real (μ μ' : Fin 512 → ℝ) (hμ' : k0_pay11 (F := Ideal) (lift2 T) (lift2 v) (col μ) = col μ') :
    k0_pay12 (F := Ideal) (lift2 T) (lift2 v) (col μ) (col μ) = col (fun b => Real.exp (μ b - μ' b)) := by
  funext j
  obtain ⟨b, u, rfl⟩ : ∃ (b : Fin 512) (u : Fin 1), j = ix2 b u := ⟨j 0, j 1, eq_ix2 j⟩
  unfold k0_pay12
  rw [hμ']
  show Ideal.exp ((μ b : EReal) - (μ' b : EReal)) = ((Real.exp (μ b - μ' b) : ℝ) : EReal)
  rw [← EReal.coe_sub]
  rfl

/-- (a5) the rescaling factor, from -∞: `-∞` minus a real is `-∞`, and `exp (-∞) = 0`. -/
theorem scale_of_bot (μ' : Fin 512 → ℝ) (hμ' : k0_pay11 (F := Ideal) (lift2 T) (lift2 v) (fun _ => (⊥ : EReal)) = col μ') :
    k0_pay12 (F := Ideal) (lift2 T) (lift2 v) (fun _ => (⊥ : EReal)) (fun _ => (⊥ : EReal)) = col (fun _ => (0 : ℝ)) := by
  funext j
  obtain ⟨b, u, rfl⟩ : ∃ (b : Fin 512) (u : Fin 1), j = ix2 b u := ⟨j 0, j 1, eq_ix2 j⟩
  unfold k0_pay12
  rw [hμ']
  show Ideal.exp ((⊥ : EReal) - (μ' b : EReal)) = ((0 : ℝ) : EReal)
  rw [EReal.bot_sub, Ideal.exp_bot, EReal.coe_zero]

end Cert.KernelIdeal.Step
end
-- ==== Proof.StepSums.lean ====
/-
  One step of the streaming evaluation, read entry by entry over arrays of reals.

  Given the tile's weights w b i = exp(logit b i - μ' b) and the rescaling factor α b = exp(μ b - μ' b) as arrays
  of reals, the step's new running sum is α b · l b + ∑ i, w b i and its new accumulator is
  α b · a b d + ∑ i, w b i · T i d. The lane sum of the weights is the finite sum over the tile's 4096 rows; the
  product of the weights with the tile into a zero accumulator is the matrix product, whose contraction index is
  the tile's row; a change of float format is the identity on the extended reals; and the coercion of the reals
  into the extended reals commutes with finite sums, with products and with sums of two, so both results are
  again arrays of reals.

  The values a first step starts from are -∞ for the running maximum and 0 for the running sum and for the
  accumulator; a step keeps the maximum it computed as it is; and the last step emits the accumulator, the
  maximum and the sum with a leading axis of extent one put in front.
-/
import proofs.«416778_j2147483648715_3_alg».proof.Proof.Gen.KernelIdeal.Frame
import proofs.«416778_j2147483648715_3_alg».proof.Proof.RealEntries
import proofs.«416778_j2147483648715_3_alg».proof.Proof.Retrieval
import Idealize.ShloMosaic.Lib.ValueLayout

noncomputable section
open Idealize.ShloMosaic Idealize.ShloMosaic.ValueIdx Cert.KernelIdeal Cert.KernelIdeal.Gen RealEntries Retrieval

namespace Cert.KernelIdeal.Step

variable (v : Fin 512 → Fin 256 → ℝ) (T : Fin 4096 → Fin 256 → ℝ)

/-! ### The running sum -/

/-- A vector of 512 entries viewed as a column reads, at row b, its entry b. -/
theorem colCast_apply {α : Type} (x : S512.Idx → α) (h : S512.ShapeCasts S512x1) (b : Fin 512) (u : Fin 1) :
    shapeCast S512x1 x h (ix2 b u) = x (ix1 b) :=
  shapeCast_apply x h _ _ (by
    have hu : u.val = 0 := by omega
    rw [Shape.rowMajor_val_one, Shape.rowMajor_val_two]
    show b.val = b.val * 1 + u.val
    rw [hu, Nat.mul_one, Nat.add_zero])

/-- The lane sum of a matrix of reals is, at row b, the sum of row b. -/
theorem laneSum_apply (w : Fin 512 → Fin 4096 → ℝ) (h : S512x4096.Reduces [1] S512) (hφ : FKind.Formats .f32)
    (hacc : (0x00000000#32 : BitVec 32) = 0x00000000#32) (b : Fin 512) :
    multiReduction (F := Ideal) .add [1] S512 (lift2 w) 0x00000000#32 h hφ hacc (ix1 b) = ((∑ i, w b i : ℝ) : EReal) := by
  refine (Ideal.multiReduction_add_single (lift2 w) 0x00000000#32 h hφ hacc (ix1 b)).trans ?_
  rw [coe_sum]
  show ∑ k : Fin 4096, lift2 w (h.lift (ix1 b) k) = _
  refine Finset.sum_congr rfl fun k _ => ?_
  have e0 : h.lift (ix1 b) k 0 = b := Fin.ext rfl
  have e1 : h.lift (ix1 b) k 1 = k := Fin.ext rfl
  show ((w (h.lift (ix1 b) k 0) (h.lift (ix1 b) k 1) : ℝ) : EReal) = _
  rw [e0, e1]

/-- (b1) the new running sum: the old sum rescaled, plus the sum of the tile's weights -/
theorem newsum_eq (m0 : Vec Ideal S512x1 .f32) (w : Fin 512 → Fin 4096 → ℝ) (α l : Fin 512 → ℝ)
    (hw : k0_pay13 (F := Ideal) (lift2 T) (lift2 v) m0 = lift2 w)
    (hα : k0_pay12 (F := Ideal) (lift2 T) (lift2 v) m0 m0 = col α) :
    k0_pay15 (F := Ideal) (lift2 T) (lift2 v) m0 m0 (col l) = col (fun b => α b * l b + ∑ i, w b i) := by
  unfold k0_pay15
  dsimp only
  rw [shapeCast_self, hw, hα]
  funext y
  obtain ⟨b, u, rfl⟩ : ∃ (b : Fin 512) (u : Fin 1), y = ix2 b u := ⟨y 0, y 1, eq_ix2 y⟩
  show (α b : EReal) * (l b : EReal) + shapeCast S512x1 _ _ (ix2 b u) = ((α b * l b + ∑ i, w b i : ℝ) : EReal)
  refine (congrArg (_ + ·) ((colCast_apply _ _ b u).trans (laneSum_apply w _ _ _ b))).trans ?_
  rw [EReal.coe_add, EReal.coe_mul]

/-! ### The accumulator

The product of the weights with the tile contracts the weights' second axis with the tile's first: at (b, d) and
contraction index k the two factors sit at (b, k) and (k, d). -/

theorem wt_lhs_0 (i : S512x256.Idx) (q : dot_S512x4096_S4096x256_S512x256_1_0_0_1_n_n.contr.Idx) :
    (dot_S512x4096_S4096x256_S512x256_1_0_0_1_n_n.lhsIdx i q 0).val = (i 0).val := by
  unfold DotDims.lhsIdx
  rw [dif_neg (show ¬(0 : Fin S512x4096.rank) ∈ dot_S512x4096_S4096x256_S512x256_1_0_0_1_n_n.lhsBatch by decide), dif_pos (show (0 : Fin S512x4096.rank) ∈ dot_S512x4096_S4096x256_S512x256_1_0_0_1_n_n.lhsNonContracting by decide)]
  rfl
theorem wt_lhs_1 (i : S512x256.Idx) (q : dot_S512x4096_S4096x256_S512x256_1_0_0_1_n_n.contr.Idx) :
    (dot_S512x4096_S4096x256_S512x256_1_0_0_1_n_n.lhsIdx i q 1).val = (q ⟨0, by decide⟩).val :=
  dot_S512x4096_S4096x256_S512x256_1_0_0_1_n_n.lhsIdx_val_of_single rfl i q
theorem wt_rhs_0 (i : S512x256.Idx) (q : dot_S512x4096_S4096x256_S512x256_1_0_0_1_n_n.contr.Idx) :
    (dot_S512x4096_S4096x256_S512x256_1_0_0_1_n_n.rhsIdx i q 0).val = (q ⟨0, by decide⟩).val :=
  dot_S512x4096_S4096x256_S512x256_1_0_0_1_n_n.rhsIdx_val_of_single rfl i q
theorem wt_rhs_1 (i : S512x256.Idx) (q : dot_S512x4096_S4096x256_S512x256_1_0_0_1_n_n.contr.Idx) :
    (dot_S512x4096_S4096x256_S512x256_1_0_0_1_n_n.rhsIdx i q 1).val = (i 1).val := by
  unfold DotDims.rhsIdx
  rw [dif_neg (show ¬(1 : Fin S4096x256.rank) ∈ dot_S512x4096_S4096x256_S512x256_1_0_0_1_n_n.rhsBatch by decide), dif_pos (show (1 : Fin S4096x256.rank) ∈ dot_S512x4096_S4096x256_S512x256_1_0_0_1_n_n.rhsNonContracting by decide)]
  rfl

/-- The product of a matrix of real weights with a real tile, into a zero accumulator, is the real matrix product. -/
theorem wt_matmul_apply (w : Fin 512 → Fin 4096 → ℝ) (φ₁ φ₂ : FTy) (L : FVec Ideal S512x4096 φ₁) (R : FVec Ideal S4096x256 φ₂)
    (hL : ∀ y, L y = lift2 w y) (hR : ∀ y, R y = lift2 T y) (b : Fin 512) (d : Fin 256) :
    matmul dot_S512x4096_S4096x256_S512x256_1_0_0_1_n_n none L R (constant S512x256 .f32 0x00000000#32) (ix2 b d)
      = ((∑ i, w b i * T i d : ℝ) : EReal) := by
  refine (Ideal.matmul_constant_zero_apply dot_S512x4096_S4096x256_S512x256_1_0_0_1_n_n none L R (ix2 b d)).trans ?_
  rw [coe_sum, ← Equiv.sum_comp (contrEquiv1 dot_S512x4096_S4096x256_S512x256_1_0_0_1_n_n 4096 rfl rfl).symm]
  refine Finset.sum_congr rfl fun k _ => ?_
  have hk := contrEquiv1_symm_val dot_S512x4096_S4096x256_S512x256_1_0_0_1_n_n 4096 rfl rfl k
  have el : dot_S512x4096_S4096x256_S512x256_1_0_0_1_n_n.lhsIdx (ix2 b d) ((contrEquiv1 dot_S512x4096_S4096x256_S512x256_1_0_0_1_n_n 4096 rfl rfl).symm k) = ix2 b k := funext fun a => Fin.ext (by
    match a with
    | ⟨0, _⟩ => exact wt_lhs_0 _ _
    | ⟨1, _⟩ => exact (wt_lhs_1 _ _).trans hk)
  have er : dot_S512x4096_S4096x256_S512x256_1_0_0_1_n_n.rhsIdx (ix2 b d) ((contrEquiv1 dot_S512x4096_S4096x256_S512x256_1_0_0_1_n_n 4096 rfl rfl).symm k) = ix2 k d := funext fun a => Fin.ext (by
    match a with
    | ⟨0, _⟩ => exact (wt_rhs_0 _ _).trans hk
    | ⟨1, _⟩ => exact wt_rhs_1 _ _)
  rw [el, er, hL, hR, EReal.coe_mul]
  rfl

/-- A column broadcast along the rows reads, at (b, d), the column's entry b. -/
theorem colBroadcast_apply {α : Type} (x : S512x1.Idx → α) (h : S512x1.Broadcasts S512x256) (b : Fin 512) (d : Fin 256) :
    broadcastTo S512x256 x h (ix2 b d) = x (ix2 b (0 : Fin 1)) := by
  refine broadcastTo_apply x h (ix2 b d) (ix2 b (0 : Fin 1)) fun ax => ?_
  match ax with
  | ⟨0, _⟩ => rfl
  | ⟨1, _⟩ => rfl

/-- The accumulator's update over arrays of reals: the rescaling factor times the old accumulator, plus the
    weights times the tile. -/
theorem acc_core (w : Fin 512 → Fin 4096 → ℝ) (α : Fin 512 → ℝ) (a : Fin 512 → Fin 256 → ℝ)
    (L : FVec Ideal S512x4096 .bf16) (R : FVec Ideal S4096x256 .bf16) (c : FVec Ideal S512x1 .f32)
    (hL : ∀ y, L y = lift2 w y) (hR : ∀ y, R y = lift2 T y) (hc : c = col α) :
    k0_pay1 (F := Ideal) R c L (lift2 a) = lift2 (fun b d => α b * a b d + ∑ i, w b i * T i d) := by
  subst hc
  unfold k0_pay1
  dsimp only
  rw [shapeCast_self]
  funext y
  obtain ⟨b, d, rfl⟩ : ∃ (b : Fin 512) (d : Fin 256), y = ix2 b d := ⟨y 0, y 1, eq_ix2 y⟩
  show broadcastTo S512x256 (col α) _ (ix2 b d) * (a b d : EReal) + matmul (F := Ideal) _ none _ _ _ (ix2 b d) = ((α b * a b d + ∑ i, w b i * T i d : ℝ) : EReal)
  rw [colBroadcast_apply, wt_matmul_apply T w .bf16 .bf16 L R hL hR b d, EReal.coe_add, EReal.coe_mul]
  rfl

/-- (b2) the new accumulator: the old accumulator rescaled row by row, plus the weights times the tile -/
theorem newacc_eq (m0 : Vec Ideal S512x1 .f32) (w : Fin 512 → Fin 4096 → ℝ) (α : Fin 512 → ℝ) (a : Fin 512 → Fin 256 → ℝ)
    (hw : k0_pay13 (F := Ideal) (lift2 T) (lift2 v) m0 = lift2 w)
    (hα : k0_pay12 (F := Ideal) (lift2 T) (lift2 v) m0 m0 = col α) :
    k0_pay1 (F := Ideal) (k0_pay9 (lift2 T)) (k0_pay12 (lift2 T) (lift2 v) m0 m0) (k0_pay14 (lift2 T) (lift2 v) m0) (lift2 a)
      = lift2 (fun b d => α b * a b d + ∑ i, w b i * T i d) := by
  have hL : ∀ y, k0_pay14 (F := Ideal) (lift2 T) (lift2 v) m0 y = lift2 w y := fun y => by
    unfold k0_pay14
    exact (truncf_apply (φ := .f32) (ψ := .bf16) (k0_pay13 (F := Ideal) (lift2 T) (lift2 v) m0) Facts₀.bitsLt_bf16_f32 y).trans (congrFun hw y)
  have hR : ∀ y, k0_pay9 (F := Ideal) (lift2 T) y = lift2 T y := fun y => by
    unfold k0_pay9
    exact truncf_apply (φ := .f32) (ψ := .bf16) (lift2 T) Facts₀.bitsLt_bf16_f32 y
  exact acc_core T w α a (k0_pay14 (lift2 T) (lift2 v) m0) (k0_pay9 (lift2 T)) (k0_pay12 (lift2 T) (lift2 v) m0 m0) hL hR hα

/-! ### (b3) The values a first step starts from, and the copies -/

theorem reset_max : k0_pay6 (F := Ideal) = fun _ => (⊥ : EReal) := by
  unfold k0_pay6
  dsimp only
  rw [shapeCast_self]
  funext y
  exact ofBits_neg_inf

theorem reset_sum : k0_pay7 (F := Ideal) = col (fun _ => (0 : ℝ)) := by
  unfold k0_pay7
  dsimp only
  rw [shapeCast_self]
  funext y
  exact ofBits_zero

theorem reset_acc : k0_pay8 (F := Ideal) = lift2 (fun _ _ => (0 : ℝ)) := by
  unfold k0_pay8
  dsimp only
  rw [shapeCast_self]
  funext y
  exact ofBits_zero

theorem keep_max {F : FTy → Type} [FloatOps F] (x : FVec F S512x1 .f32) : k0_pay2 x = x := by
  unfold k0_pay2
  exact shapeCast_self _ _

theorem emit_acc (a : Fin 512 → Fin 256 → ℝ) : k0_pay3 (F := Ideal) (lift2 a) = lift3 (fun (_ : Fin 1) b d => a b d) := by
  funext j
  obtain ⟨u, b, d, rfl⟩ : ∃ (u : Fin 1) (b : Fin 512) (d : Fin 256), j = ix3 u b d := ⟨j 0, j 1, j 2, eq_ix3 j⟩
  unfold k0_pay3
  exact shapeCast_ab_1ab_apply _ _ u b d

theorem emit_col (μ : Fin 512 → ℝ) : k0_pay4 (F := Ideal) (col μ) = lift3 (fun (_ : Fin 1) b (_ : Fin 1) => μ b) := by
  funext j
  obtain ⟨u, b, d, rfl⟩ : ∃ (u : Fin 1) (b : Fin 512) (d : Fin 1), j = ix3 u b d := ⟨j 0, j 1, j 2, eq_ix3 j⟩
  unfold k0_pay4
  exact shapeCast_ab_1ab_apply _ _ u b d

theorem emit_col' (μ : Fin 512 → ℝ) : k0_pay5 (F := Ideal) (col μ) = lift3 (fun (_ : Fin 1) b (_ : Fin 1) => μ b) := by
  funext j
  obtain ⟨u, b, d, rfl⟩ : ∃ (u : Fin 1) (b : Fin 512) (d : Fin 1), j = ix3 u b d := ⟨j 0, j 1, j 2, eq_ix3 j⟩
  unfold k0_pay5
  exact shapeCast_ab_1ab_apply _ _ u b d

end Cert.KernelIdeal.Step
end
-- ==== Proof.KernelInputs.lean ====
/-
  The three argument arrays as the kernel finds them.

  (e1) Under the precondition `all(|x| < +∞)` on each of the three arguments, every entry of the query array,
       of the key array and of the memory array is a real number: an extended real `x` with `max x (-x) < +∞`
       is neither `+∞` nor `-∞`. So each array is the reading, as extended reals, of an array of reals.
  (e2) The query window's block index is (0, 0) at every grid point and its block has the array's own shape, so
       the block read through the window is the whole query array.
  (e3) The memory window's block index at grid point `t` is (t, 0) and its block has 4096 rows, so entry (i, d) of
       the block is entry (4096 t + i, d) of the memory array: a block's coordinate is index × block size +
       the coordinate inside the block.
-/
import proofs.«416778_j2147483648715_3_alg».proof.Defs
import proofs.«416778_j2147483648715_3_alg».proof.Proof.Gen.KernelIdeal.Frame
import proofs.«416778_j2147483648715_3_alg».proof.Proof.Gen.Pre_finite_inputs
import proofs.«416778_j2147483648715_3_alg».proof.Proof.RealEntries
import proofs.«416778_j2147483648715_3_alg».proof.Proof.Retrieval
import Idealize.ShloMosaic.Lib.Pipeline.Value
import Idealize.ShloMosaic.Lib.ReduceAll

noncomputable section
open Idealize.ShloMosaic Idealize.ShloMosaic.TcCoe Idealize.SL.Sem Idealize.ShloMosaic.ValueIdx
open Cert.KernelIdeal Cert.KernelIdeal.Gen RealEntries Retrieval
open Idealize.ShloMosaic.Pipeline (Dat)

namespace Cert.KernelIdeal.Inputs

open Cert.Pre_finite_inputs (S_)

/-! ## Finite entries are reals -/

/-- The shape of rank 0 has exactly one index. -/
theorem subsingleton_scalarIdx : Subsingleton S_.Idx := ⟨fun a b => funext fun d => d.elim0⟩

/-- An extended real whose absolute value `max x (-x)` lies strictly below +∞ (the binary32 word
    0x7F800000) is a real number: it is neither +∞ nor -∞. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  have hlt : max x (-x) < ⊤ := by
    by_contra hc
    simp [Ideal.cmp, hc] at h
  induction x using EReal.rec with
  | bot => simp at hlt
  | coe r => exact ⟨r, rfl⟩
  | top => simp at hlt

/-- `all(|X| < +∞)` over an array of any shape: when the conjunction of the entrywise tests, taken over all
    axes from 1, is 1, every test is 1, so every entry is a real. -/
theorem entries_real {s : Shape} {axes : List (Fin s.rank)} (X : FVec Ideal s .f32)
    (hb : S_.BroadcastsInDim s (![] : Fin 0 → Fin s.rank)) (hr : s.ReducesTo axes S_) (hu : 0 < S_.numel)
    (e : Host.reduce IntOp.andi (cmpf .olt (Host.absf X) (broadcastInDim s ![] hb (constant S_ .f32 0x7F800000#32)))
          (constantI S_ 1 1#1) hr hu ix0 = 1#1) (i : s.Idx) : ∃ r : ℝ, X i = (r : EReal) := by
  haveI := subsingleton_scalarIdx
  exact real_of_abs_lt_top (X i) (Host.reduce_andi_all _ _ hr hu ix0 e i)

/-- A matrix of extended reals every entry of which is a real is the reading of a matrix of reals. -/
theorem eq_lift2 {a b : ℕ} (X : (⟨2, ![a, b]⟩ : Shape).Idx → EReal) (f : (⟨2, ![a, b]⟩ : Shape).Idx → ℝ)
    (hf : ∀ i, X i = (f i : EReal)) : X = lift2 fun p q => f (ix2 p q) := by
  funext j
  exact (hf j).trans (congrArg (fun y => ((f y : ℝ) : EReal)) (eq_ix2 j))

/-- (e1) under the precondition the three argument arrays hold real numbers -/
theorem real_inputs (m : (ℓ : Loc nD τ sig) → Buf (Elt Ideal) ℓ) (h : Cert.Pre_KernelIdeal m) (c : Dev nD) :
    ∃ (v k : Fin 512 → Fin 256 → ℝ) (M : Fin 32768 → Fin 256 → ℝ),
      m ((c.tc : Thread nD τ).loc main_arg0) = lift2 v ∧ m ((c.tc : Thread nD τ).loc main_arg1) = lift2 k
        ∧ m ((c.tc : Thread nD τ).loc main_arg2) = lift2 M := by
  -- the precondition at its one index: a conjunction of the three `all`s
  have h0 := congrFun (h c) ValueIdx.ix0
  dsimp only [Cert.Pre_finite_inputs.fn] at h0
  obtain ⟨h01, h2⟩ := IntOp.andi_eq_one.1 h0
  obtain ⟨h0', h1⟩ := IntOp.andi_eq_one.1 h01
  -- each `all` gives a real for every entry of its array
  choose v hv using entries_real _ _ _ _ h0'
  choose k hk using entries_real _ _ _ _ h1
  choose M hM using entries_real _ _ _ _ h2
  exact ⟨fun b d => v (ix2 b d), fun b d => k (ix2 b d), fun b d => M (ix2 b d),
    eq_lift2 _ v hv, eq_lift2 _ k hk, eq_lift2 _ M hM⟩

/-! ## The input windows' blocks, read off their arrays -/

variable {F : FTy → Type} [FloatOps F]
variable (m : (ℓ : Loc nD τ sig) → Buf (Elt F) ℓ)

/-- The query window never moves: its block index is (0, 0) at every grid point. -/
theorem query_index : ∀ t : Fin cfg0.N, win0_0.index t 0 = 0 ∧ win0_0.index t 1 = 0 :=
  (by decide +kernel : ∀ t : Fin grid0.N, win0_0.index t 0 = 0 ∧ win0_0.index t 1 = 0)

/-- The memory window walks down the rows: its block index at grid point `t` is (t, 0). -/
theorem memory_index : ∀ t : Fin cfg0.N, win0_1.index t 0 = t.val ∧ win0_1.index t 1 = 0 :=
  (by decide +kernel : ∀ t : Fin grid0.N, win0_1.index t 0 = t.val ∧ win0_1.index t 1 = 0)

/-- (e2) the query block is the whole query array, at every point -/
theorem query_block (c : Dev nD) (t : Fin cfg0.N) :
    (iblk m c 0 t : Vec F S512x256 .f32) = m ((c.tc : Thread nD τ).loc main_arg0) := by
  obtain ⟨h0, h1⟩ := query_index t
  funext j
  unfold iblk
  rw [View.read_apply]
  show V m c main_arg0 _ = m ((c.tc : Thread nD τ).loc main_arg0) j
  rw [V_main_arg0]
  congr 1
  funext a
  apply Fin.ext
  match a with
  | ⟨0, _⟩ => show win0_0.index t 0 * 512 + 1 * (j 0).val = (j 0).val; rw [h0]; omega
  | ⟨1, _⟩ => show win0_0.index t 1 * 256 + 1 * (j 1).val = (j 1).val; rw [h1]; omega

/-- (e3) the memory block at point t is rows 4096 t … 4096 t + 4095 of the memory -/
theorem memory_block (c : Dev nD) (t : Fin cfg0.N) (i : Fin 4096) (d : Fin 256) (h : 4096 * t.val + i.val < 32768) :
    (iblk m c 1 t : Vec F S4096x256 .f32) (ix2 i d) = m ((c.tc : Thread nD τ).loc main_arg2) (ix2 ⟨4096 * t.val + i.val, h⟩ d) := by
  obtain ⟨h0, h1⟩ := memory_index t
  unfold iblk
  rw [View.read_apply]
  show V m c main_arg2 _ = m ((c.tc : Thread nD τ).loc main_arg2) _
  rw [V_main_arg2]
  congr 1
  funext a
  apply Fin.ext
  match a with
  | ⟨0, _⟩ => show win0_1.index t 0 * 4096 + 1 * i.val = 4096 * t.val + i.val; rw [h0]; omega
  | ⟨1, _⟩ => show win0_1.index t 1 * 256 + 1 * d.val = d.val; rw [h1]; omega

end Cert.KernelIdeal.Inputs
end
-- ==== Proof.MemoryRows.lean ====
/-
  Which memory rows the streaming evaluation has seen.

  The 32768 memory rows are read in 8 blocks of 4096; point n of the grid (n = 0, …, 7) reads block n, rows
  4096 n, …, 4096 n + 4095. Points 0–3 sweep the first half of the memory and points 4–7 the second half, each half
  starting afresh: after point n the running quantities cover the rows of the blocks 4 ⌊n/4⌋, …, n. The two halves
  partition the memory.
-/
import Mathlib.Algebra.BigOperators.Group.Finset.Basic
import Mathlib.Data.Fintype.Basic
import Mathlib.Data.Real.Basic
import Mathlib.Tactic.Ring
import Mathlib.Tactic.Linarith

noncomputable section

open scoped BigOperators

namespace MemoryRows

/-- The rows of block `n`. -/
def block (n : ℕ) : Finset (Fin 32768) := Finset.univ.filter fun r => 4096 * n ≤ r.val ∧ r.val < 4096 * (n + 1)

/-- The rows covered after point `n`: those of the blocks of `n`'s half up to block `n`. -/
def seen (n : ℕ) : Finset (Fin 32768) :=
  Finset.univ.filter fun r => 4096 * (4 * (n / 4)) ≤ r.val ∧ r.val < 4096 * (n + 1)

theorem mem_block {n : ℕ} {r : Fin 32768} : r ∈ block n ↔ 4096 * n ≤ r.val ∧ r.val < 4096 * (n + 1) := by
  simp [block]

theorem mem_seen {n : ℕ} {r : Fin 32768} : r ∈ seen n ↔ 4096 * (4 * (n / 4)) ≤ r.val ∧ r.val < 4096 * (n + 1) := by
  simp [seen]

/-- At the first point of a half only that point's block has been seen. -/
theorem seen_first {n : ℕ} (h : n % 4 = 0) : seen n = block n := by
  ext r; rw [mem_seen, mem_block]; constructor <;> intro ⟨h1, h2⟩ <;> exact ⟨by omega, by omega⟩

/-- At a later point of a half the point's block joins what had been seen. -/
theorem seen_next {n : ℕ} (h : n % 4 ≠ 0) : seen n = seen (n - 1) ∪ block n := by
  ext r; rw [Finset.mem_union, mem_seen, mem_seen, mem_block]
  constructor
  · intro ⟨h1, h2⟩
    by_cases hr : r.val < 4096 * n
    · left; exact ⟨by omega, by omega⟩
    · right; exact ⟨by omega, h2⟩
  · rintro (⟨h1, h2⟩ | ⟨h1, h2⟩) <;> exact ⟨by omega, by omega⟩

theorem disjoint_seen_block {n : ℕ} (h : n % 4 ≠ 0) : Disjoint (seen (n - 1)) (block n) := by
  rw [Finset.disjoint_left]; intro r h1 h2
  rw [mem_seen] at h1; rw [mem_block] at h2; omega

/-- The two halves make up the memory, -/
theorem seen_halves : seen 3 ∪ seen 7 = Finset.univ := by
  ext r; rw [Finset.mem_union, mem_seen, mem_seen]
  have := r.isLt
  constructor
  · intro _; exact Finset.mem_univ _
  · intro _; by_cases hr : r.val < 16384
    · left; exact ⟨by omega, by omega⟩
    · right; exact ⟨by omega, by omega⟩

/-- and do not overlap. -/
theorem disjoint_halves : Disjoint (seen 3) (seen 7) := by
  rw [Finset.disjoint_left]; intro r h1 h2
  rw [mem_seen] at h1 h2; omega

theorem block_nonempty {n : ℕ} (hn : n < 8) : (block n).Nonempty :=
  ⟨⟨4096 * n, by omega⟩, mem_block.mpr ⟨le_refl _, by show 4096 * n < 4096 * (n + 1); omega⟩⟩

/-- Row `i` of block `n`. -/
def row (n : ℕ) (hn : n < 8) (i : Fin 4096) : Fin 32768 := ⟨4096 * n + i.val, by have := i.isLt; omega⟩

/-- A sum over the rows of a block is the sum over its 4096 positions. -/
theorem sum_block (n : ℕ) (hn : n < 8) (f : Fin 32768 → ℝ) : ∑ r ∈ block n, f r = ∑ i : Fin 4096, f (row n hn i) := by
  symm
  refine Finset.sum_bij (fun i _ => row n hn i) ?_ ?_ ?_ ?_
  · intro i _; rw [mem_block]; have := i.isLt; exact ⟨by show 4096 * n ≤ 4096 * n + i.val; omega, by show 4096 * n + i.val < _; omega⟩
  · intro i _ j _ hij
    have : (row n hn i).val = (row n hn j).val := congrArg Fin.val hij
    exact Fin.ext (by simp only [row] at this; omega)
  · intro r hr; rw [mem_block] at hr
    exact ⟨⟨r.val - 4096 * n, by omega⟩, Finset.mem_univ _, Fin.ext (by show 4096 * n + (r.val - 4096 * n) = r.val; omega)⟩
  · intro i _; rfl

end MemoryRows

end
-- ==== Proof.OnlineInvariant.lean ====
/-
  The streaming evaluation, point by point.

  The kernel sweeps each half of the memory in four blocks, carrying three quantities per query: a running maximum μ
  of the logits, a running sum l and a running weighted sum of the rows. At each block it raises μ to
  μ' = max(μ, the block's largest logit), rescales l and the weighted sum by exp(μ - μ') and adds the block's
  weights exp(logit - μ') and weighted rows. At the first block of a half the carried values are -∞, 0, 0, and
  exp(-∞ - μ') = 0 discards them.

  This module proves, by induction on the grid point, that after point n the running maximum is a real number, the
  running sum is the mass — relative to that running maximum — of the rows seen so far in n's half, and the running
  weighted sum is their moment. Nothing is used of the running maximum except that it is real: rescaling by
  exp(μ - μ') moves mass and moment from the reference point μ to the reference point μ', whatever μ' is.
-/
import proofs.«416778_j2147483648715_3_alg».proof.Proof.KernelPoints
import proofs.«416778_j2147483648715_3_alg».proof.Proof.StepWeights
import proofs.«416778_j2147483648715_3_alg».proof.Proof.StepSums
import proofs.«416778_j2147483648715_3_alg».proof.Proof.KernelInputs
import proofs.«416778_j2147483648715_3_alg».proof.Proof.RealEntries
import proofs.«416778_j2147483648715_3_alg».proof.Proof.Retrieval
import proofs.«416778_j2147483648715_3_alg».proof.Proof.MemoryRows
import Idealize.ShloMosaic.Lib.Pipeline.Value

set_option maxRecDepth 16384
noncomputable section
open scoped BigOperators
open Idealize.ShloMosaic Idealize.ShloMosaic.TcCoe Idealize.SL.Sem Idealize.ShloMosaic.ValueIdx
open Idealize.ShloMosaic.Pipeline (Dat)

namespace Cert.KernelIdeal.Online

open Cert.KernelIdeal Cert.KernelIdeal.Gen Cert.KernelIdeal.Points Cert.KernelIdeal.Step Cert.KernelIdeal.Inputs
open RealEntries Retrieval MemoryRows

variable (m : (ℓ : Loc nD τ sig) → Buf (Elt Ideal) ℓ) (c : Dev nD)
variable (v : Fin 512 → Fin 256 → ℝ) (M : Fin 32768 → Fin 256 → ℝ)

/-- The block of memory rows read at point `n`. -/
def tile (n : ℕ) (hn : n < 8) : Fin 4096 → Fin 256 → ℝ := fun i d => M (row n hn i) d

/-- The mass of a block is a sum over the block's 4096 positions, -/
theorem mass_block (n : ℕ) (hn : n < 8) (b : Fin 512) (μ : ℝ) :
    mass v M b μ (block n) = ∑ i, Real.exp (logit v (tile M n hn) b i - μ) := by
  unfold mass; rw [sum_block n hn]; rfl

/-- and so is its moment. -/
theorem moment_block (n : ℕ) (hn : n < 8) (b : Fin 512) (d : Fin 256) (μ : ℝ) :
    moment v M b d μ (block n) = ∑ i, Real.exp (logit v (tile M n hn) b i - μ) * tile M n hn i d := by
  unfold moment; rw [sum_block n hn]; rfl

variable (hv : m ((c.tc : Thread nD τ).loc main_arg0) = lift2 v) (hM : m ((c.tc : Thread nD τ).loc main_arg2) = lift2 M)

include hv in
/-- The query block is the matrix of queries. -/
theorem qblk_eq (t : Fin cfg0.N) : qblk m c t = lift2 v := (query_block m c t).trans hv

include hM in
/-- The memory block at point `t` is block `t` of the memory. -/
theorem mblk_eq (t : Fin cfg0.N) : mblk m c t = lift2 (tile M t.val (lt_of_lt_of_eq t.isLt N_0)) := by
  funext y
  obtain ⟨i, d, rfl⟩ : ∃ (i : Fin 4096) (d : Fin 256), y = ix2 i d := ⟨y 0, y 1, eq_ix2 y⟩
  have h8 : t.val < 8 := lt_of_lt_of_eq t.isLt N_0
  have hlt : 4096 * t.val + i.val < 32768 := by have := i.isLt; omega
  show (iblk m c 1 t : Vec Ideal S4096x256 .f32) (ix2 i d) = _
  rw [memory_block m c t i d hlt, hM]
  rfl

/-- The running maximum after point `n`, as a real number per query. -/
def runMax (n : ℕ) (hn : n < cfg0.N) (b : Fin 512) : ℝ := ((outsAt0 m c n hn).2.2.2.1 (ix2 b 0)).toReal

theorem toReal_col (X : Vec Ideal S512x1 .f32) (μ : Fin 512 → ℝ) (h : X = col μ) : (fun b => (X (ix2 b 0)).toReal) = μ := by
  subst h; funext b; exact EReal.toReal_coe _

/-- After point `n`: the running maximum is real, the running sum is the mass of the rows seen so far and the
    running weighted sum their moment, both relative to the running maximum. -/
structure Inv (n : ℕ) (hn : n < cfg0.N) : Prop where
  hmax : (outsAt0 m c n hn).2.2.2.1 = col (runMax m c n hn)
  hsum : (outsAt0 m c n hn).2.2.2.2.1 = col (fun b => mass v M b (runMax m c n hn b) (seen n))
  hacc : (outsAt0 m c n hn).2.2.2.2.2 = lift2 (fun b d => moment v M b d (runMax m c n hn b) (seen n))

include hv hM in
theorem inv (n : ℕ) : ∀ hn : n < cfg0.N, Inv m c v M n hn := by
  induction n using Nat.strong_induction_on with
  | _ n ih =>
    intro hn
    have hn8 : n < 8 := lt_of_lt_of_eq hn N_0
    have hq := qblk_eq m c v hv ⟨n, hn⟩
    have hb := mblk_eq m c M hM ⟨n, hn⟩
    by_cases h0 : n % 4 = 0
    · obtain ⟨μ', hμ'⟩ := newmax_real v (tile M n hn8) (fun _ => (⊥ : EReal)) (fun _ => Or.inl rfl)
      have hmx : (outsAt0 m c n hn).2.2.2.1 = col μ' := by
        rw [max_at_first m c ⟨n, hn⟩ h0, keep_max, reset_max, hq, hb]; exact hμ'
      have hrm : runMax m c n hn = μ' := toReal_col _ _ hmx
      have hw := weights_eq v (tile M n hn8) _ μ' hμ'
      have hα := scale_of_bot v (tile M n hn8) μ' hμ'
      refine ⟨by rw [hrm]; exact hmx, ?_, ?_⟩
      · rw [sum_at_first m c ⟨n, hn⟩ h0, reset_max, reset_sum, hq, hb]
        rw [newsum_eq v (tile M n hn8) _ _ _ _ hw hα, hrm, seen_first h0]
        refine congrArg col (funext fun b => ?_)
        show (0 : ℝ) * 0 + ∑ i, Real.exp (logit v (tile M n hn8) b i - μ' b) = mass v M b (μ' b) (block n)
        rw [mass_block v M n hn8, mul_zero, zero_add]
      · rw [acc_at_first m c ⟨n, hn⟩ h0, reset_max, reset_acc, hq, hb]
        rw [newacc_eq v (tile M n hn8) _ _ _ _ hw hα, hrm, seen_first h0]
        refine congrArg lift2 (funext fun b => funext fun d => ?_)
        show (0 : ℝ) * 0 + ∑ i, Real.exp (logit v (tile M n hn8) b i - μ' b) * tile M n hn8 i d = moment v M b d (μ' b) (block n)
        rw [moment_block v M n hn8, mul_zero, zero_add]
    · have hp : n - 1 < cfg0.N := by omega
      have I := ih (n - 1) (by omega) hp
      have e0 : (outsAt0 m c ((⟨n, hn⟩ : Fin cfg0.N).val - 1) (Nat.lt_of_le_of_lt (Nat.sub_le _ _) (⟨n, hn⟩ : Fin cfg0.N).isLt)).2.2.2.1
          = col (runMax m c (n - 1) hp) := I.hmax
      have e1 : (outsAt0 m c ((⟨n, hn⟩ : Fin cfg0.N).val - 1) (Nat.lt_of_le_of_lt (Nat.sub_le _ _) (⟨n, hn⟩ : Fin cfg0.N).isLt)).2.2.2.2.1
          = col (fun b => mass v M b (runMax m c (n - 1) hp b) (seen (n - 1))) := I.hsum
      have e2 : (outsAt0 m c ((⟨n, hn⟩ : Fin cfg0.N).val - 1) (Nat.lt_of_le_of_lt (Nat.sub_le _ _) (⟨n, hn⟩ : Fin cfg0.N).isLt)).2.2.2.2.2
          = lift2 (fun b d => moment v M b d (runMax m c (n - 1) hp b) (seen (n - 1))) := I.hacc
      obtain ⟨μ', hμ'⟩ := newmax_real v (tile M n hn8) (col (runMax m c (n - 1) hp)) (fun _ => Or.inr ⟨_, rfl⟩)
      have hmx : (outsAt0 m c n hn).2.2.2.1 = col μ' := by
        rw [max_at_next m c ⟨n, hn⟩ h0, keep_max, e0, hq, hb]; exact hμ'
      have hrm : runMax m c n hn = μ' := toReal_col _ _ hmx
      have hw := weights_eq v (tile M n hn8) _ μ' hμ'
      have hα := scale_of_real v (tile M n hn8) _ μ' hμ'
      refine ⟨by rw [hrm]; exact hmx, ?_, ?_⟩
      · rw [sum_at_next m c ⟨n, hn⟩ h0, e0, e1, hq, hb]
        rw [newsum_eq v (tile M n hn8) _ _ _ _ hw hα, hrm, seen_next h0]
        refine congrArg col (funext fun b => ?_)
        show Real.exp (runMax m c (n - 1) hp b - μ' b) * mass v M b (runMax m c (n - 1) hp b) (seen (n - 1))
            + ∑ i, Real.exp (logit v (tile M n hn8) b i - μ' b) = mass v M b (μ' b) (seen (n - 1) ∪ block n)
        rw [mass_union v M b _ (disjoint_seen_block h0), mass_block v M n hn8, mass_rescale]
      · rw [acc_at_next m c ⟨n, hn⟩ h0, e0, e2, hq, hb]
        rw [newacc_eq v (tile M n hn8) _ _ _ _ hw hα, hrm, seen_next h0]
        refine congrArg lift2 (funext fun b => funext fun d => ?_)
        show Real.exp (runMax m c (n - 1) hp b - μ' b) * moment v M b d (runMax m c (n - 1) hp b) (seen (n - 1))
            + ∑ i, Real.exp (logit v (tile M n hn8) b i - μ' b) * tile M n hn8 i d = moment v M b d (μ' b) (seen (n - 1) ∪ block n)
        rw [moment_union v M b d _ (disjoint_seen_block h0), moment_block v M n hn8, moment_rescale]

end Cert.KernelIdeal.Online
end
-- ==== Proof.KernelArrays.lean ====
/-
  The three output arrays of the pipelined region after its run, each as the blocks its two writing-back points
  left, laid side by side.

  The grid has 2 × 4 = 8 points, numbered t = 4 g + s with g the first and s the second coordinate. Each of the
  three output windows has block index (g, 0, 0) and is written back exactly at the points with s = 3, i.e.
  t ≡ 3 (mod 4): t = 3 writes block 0 and t = 7 writes block 1. A block is [1, 512, d] of a [2, 512, d] array
  (d = 256 for the accumulator, d = 1 for the running maximum and the running sum), so the two blocks tile the
  array along its leading axis and every index (i₀, i₁, i₂) is covered by the point 4 i₀ + 3. Hence, whatever the
  staging buffers hold at those two points — given as blk (t / 4) — the array ends as
  (i₀, i₁, i₂) ↦ blk i₀ (0, i₁, i₂).
-/
import proofs.«416778_j2147483648715_3_alg».proof.Defs
import proofs.«416778_j2147483648715_3_alg».proof.Proof.Gen.KernelIdeal.Frame
import proofs.«416778_j2147483648715_3_alg».proof.Proof.Gen.Pre_finite_inputs
import proofs.«416778_j2147483648715_3_alg».proof.Proof.RealEntries
import proofs.«416778_j2147483648715_3_alg».proof.Proof.Retrieval
import Idealize.ShloMosaic.Lib.Pipeline.Value

noncomputable section
open Idealize.ShloMosaic Idealize.ShloMosaic.TcCoe Idealize.SL.Sem Idealize.ShloMosaic.ValueIdx
open Cert.KernelIdeal Cert.KernelIdeal.Gen RealEntries Retrieval
open Idealize.ShloMosaic.Pipeline (Dat)

namespace Cert.KernelIdeal.Arrays

variable {F : FTy → Type} [FloatOps F]
variable (m : (ℓ : Loc nD τ sig) → Buf (Elt F) ℓ)

/-! ## Output window 2: the accumulator, [2, 512, 256] -/

/-- The block index of window 2 at the grid point numbered t is (t / 4, 0, 0): the index map returns the first grid
    coordinate on the leading axis and zero on the two others, and point t has first coordinate t / 4. -/
theorem idx2 : ∀ t : Fin cfg0.N, win0_2.index t (0 : Fin 3) = t.val / 4
    ∧ win0_2.index t (1 : Fin 3) = 0 ∧ win0_2.index t (2 : Fin 3) = 0 :=
  (by decide +kernel : ∀ t : Fin grid0.N, _)

/-- What a writing-back point t (t ≡ 3 mod 4) writes is block t / 4 of the assembled array: element y of the block
    sits in the array at (t / 4 + y₀, y₁, y₂) with y₀ = 0, so reading the assembled array there gives back
    element (0, y₁, y₂) of the block numbered t / 4. -/
theorem flushed2_eq (c : Dev nD) (blk : ℕ → Vec F S1x512x256 .f32)
    (h : ∀ t : Fin cfg0.N, t.val % 4 = 3 → (outsAt0 m c t.val t.isLt).1 = blk (t.val / 4))
    (t : Fin cfg0.N) (hf : (cfg0.win 2).flush t = true) :
    (dats m 0 c).flushed 2 t = ((cfg0.win 2).blk t).view.read (Elt F)
      (fun y : S2x512x256.Idx => blk (y 0).val (ix3 0 (y 1) (y 2))) := by
  have ht : t.val % 4 = 3 := (flush0_2 t).mp hf
  show (cfg0.win 2).cut (grid0.coords t) ((dats m 0 c).after 2 t) = _
  rw [after0_2, h t ht]
  funext y
  rw [View.read_apply]
  obtain ⟨i0, i1, i2⟩ := idx2 t
  have y0 : (y 0).val < 1 := (y 0).isLt
  -- the leading coordinate of the element's place in the array is the block number
  have e0 : (((cfg0.win 2).blk t).view.emb y 0).val = t.val / 4 := by
    show win0_2.index t (0 : Fin 3) * 1 + 1 * (y 0).val = _
    omega
  -- the two other coordinates are the element's own, the block index being zero on those axes
  have e : ix3 (0 : Fin 1) (((cfg0.win 2).blk t).view.emb y 1) (((cfg0.win 2).blk t).view.emb y 2)
      = (cfg0.win 2).xinj (grid0.coords t) y := by
    funext a; apply Fin.ext
    match a with
    | ⟨0, _⟩ => show 0 = (y 0).val; omega
    | ⟨1, _⟩ => show win0_2.index t (1 : Fin 3) * 512 + 1 * (y 1).val = (y 1).val; omega
    | ⟨2, _⟩ => show win0_2.index t (2 : Fin 3) * 256 + 1 * (y 2).val = (y 2).val; omega
  show blk (t.val / 4) ((cfg0.win 2).xinj (grid0.coords t) y) = blk _ _
  rw [e0]
  exact congrArg (blk (t.val / 4)) e.symm

/-- The array of window 2 after the run: every index (i₀, i₁, i₂) lies in the block of the writing-back point
    4 i₀ + 3 (block number i₀ on the leading axis, the whole extent on the two others), so the array is the blocks
    laid side by side along the leading axis. -/
theorem final_acc (c : Dev nD) (blk : ℕ → Vec F S1x512x256 .f32)
    (h : ∀ t : Fin cfg0.N, t.val % 4 = 3 → (outsAt0 m c t.val t.isLt).1 = blk (t.val / 4)) :
    (dats m 0 c).arrAt 2 cfg0.N = fun y => blk (y 0).val (ix3 0 (y 1) (y 2)) :=
  (dats m 0 c).arrAt_eq_of_cover 2 _ (flushed2_eq m c blk h) fun i => by
    have hN : cfg0.N = 8 := N_0
    have hi0 : (i 0).val < 2 := (i 0).isLt
    have hi1 : (i 1).val < 512 := (i 1).isLt
    have hi2 : (i 2).val < 256 := (i 2).isLt
    have hlt : 4 * (i 0).val + 3 < cfg0.N := by omega
    refine ⟨⟨4 * (i 0).val + 3, hlt⟩, (flush0_2 _).mpr (by show (4 * (i 0).val + 3) % 4 = 3; omega), ?_⟩
    obtain ⟨i0, i1, i2⟩ := idx2 ⟨4 * (i 0).val + 3, hlt⟩
    have q : (4 * (i 0).val + 3) / 4 = (i 0).val := by omega
    show i ∈ ((View.whole main_v0_0).slice (win0_2.rect ⟨4 * (i 0).val + 3, hlt⟩)).set
    rw [View.set_slice_whole, Rect.mem_set_unit]
    intro a
    match a with
    | ⟨0, _⟩ =>
      show win0_2.index ⟨4 * (i 0).val + 3, hlt⟩ (0 : Fin 3) * 1 ≤ (i 0).val
        ∧ (i 0).val < win0_2.index ⟨4 * (i 0).val + 3, hlt⟩ (0 : Fin 3) * 1 + 1
      rw [i0]; show (4 * (i 0).val + 3) / 4 * 1 ≤ _ ∧ _ < (4 * (i 0).val + 3) / 4 * 1 + 1; omega
    | ⟨1, _⟩ =>
      show win0_2.index ⟨4 * (i 0).val + 3, hlt⟩ (1 : Fin 3) * 512 ≤ (i 1).val
        ∧ (i 1).val < win0_2.index ⟨4 * (i 0).val + 3, hlt⟩ (1 : Fin 3) * 512 + 512
      rw [i1]; omega
    | ⟨2, _⟩ =>
      show win0_2.index ⟨4 * (i 0).val + 3, hlt⟩ (2 : Fin 3) * 256 ≤ (i 2).val
        ∧ (i 2).val < win0_2.index ⟨4 * (i 0).val + 3, hlt⟩ (2 : Fin 3) * 256 + 256
      rw [i2]; omega

/-! ## Output window 3: the running maximum, [2, 512, 1] -/

/-- The block index of window 3 at the grid point numbered t is (t / 4, 0, 0). -/
theorem idx3 : ∀ t : Fin cfg0.N, win0_3.index t (0 : Fin 3) = t.val / 4
    ∧ win0_3.index t (1 : Fin 3) = 0 ∧ win0_3.index t (2 : Fin 3) = 0 :=
  (by decide +kernel : ∀ t : Fin grid0.N, _)

/-- What a writing-back point t writes is block t / 4 of the assembled array; here the trailing axis has the one
    coordinate 0 both in the block and in the array. -/
theorem flushed3_eq (c : Dev nD) (blk : ℕ → Vec F S1x512x1 .f32)
    (h : ∀ t : Fin cfg0.N, t.val % 4 = 3 → (outsAt0 m c t.val t.isLt).2.1 = blk (t.val / 4))
    (t : Fin cfg0.N) (hf : (cfg0.win 3).flush t = true) :
    (dats m 0 c).flushed 3 t = ((cfg0.win 3).blk t).view.read (Elt F)
      (fun y : S2x512x1.Idx => blk (y 0).val (ix3 0 (y 1) (y 2))) := by
  have ht : t.val % 4 = 3 := (flush0_3 t).mp hf
  show (cfg0.win 3).cut (grid0.coords t) ((dats m 0 c).after 3 t) = _
  rw [after0_3, h t ht]
  funext y
  rw [View.read_apply]
  obtain ⟨i0, i1, i2⟩ := idx3 t
  have y0 : (y 0).val < 1 := (y 0).isLt
  have e0 : (((cfg0.win 3).blk t).view.emb y 0).val = t.val / 4 := by
    show win0_3.index t (0 : Fin 3) * 1 + 1 * (y 0).val = _
    omega
  have e : ix3 (0 : Fin 1) (((cfg0.win 3).blk t).view.emb y 1) (((cfg0.win 3).blk t).view.emb y 2)
      = (cfg0.win 3).xinj (grid0.coords t) y := by
    funext a; apply Fin.ext
    match a with
    | ⟨0, _⟩ => show 0 = (y 0).val; omega
    | ⟨1, _⟩ => show win0_3.index t (1 : Fin 3) * 512 + 1 * (y 1).val = (y 1).val; omega
    | ⟨2, _⟩ => show win0_3.index t (2 : Fin 3) * 1 + 1 * (y 2).val = (y 2).val; omega
  show blk (t.val / 4) ((cfg0.win 3).xinj (grid0.coords t) y) = blk _ _
  rw [e0]
  exact congrArg (blk (t.val / 4)) e.symm

/-- The array of window 3 after the run is its two blocks laid side by side along the leading axis. -/
theorem final_max (c : Dev nD) (blk : ℕ → Vec F S1x512x1 .f32)
    (h : ∀ t : Fin cfg0.N, t.val % 4 = 3 → (outsAt0 m c t.val t.isLt).2.1 = blk (t.val / 4)) :
    (dats m 0 c).arrAt 3 cfg0.N = fun y => blk (y 0).val (ix3 0 (y 1) (y 2)) :=
  (dats m 0 c).arrAt_eq_of_cover 3 _ (flushed3_eq m c blk h) fun i => by
    have hN : cfg0.N = 8 := N_0
    have hi0 : (i 0).val < 2 := (i 0).isLt
    have hi1 : (i 1).val < 512 := (i 1).isLt
    have hi2 : (i 2).val < 1 := (i 2).isLt
    have hlt : 4 * (i 0).val + 3 < cfg0.N := by omega
    refine ⟨⟨4 * (i 0).val + 3, hlt⟩, (flush0_3 _).mpr (by show (4 * (i 0).val + 3) % 4 = 3; omega), ?_⟩
    obtain ⟨i0, i1, i2⟩ := idx3 ⟨4 * (i 0).val + 3, hlt⟩
    have q : (4 * (i 0).val + 3) / 4 = (i 0).val := by omega
    show i ∈ ((View.whole main_v0_1).slice (win0_3.rect ⟨4 * (i 0).val + 3, hlt⟩)).set
    rw [View.set_slice_whole, Rect.mem_set_unit]
    intro a
    match a with
    | ⟨0, _⟩ =>
      show win0_3.index ⟨4 * (i 0).val + 3, hlt⟩ (0 : Fin 3) * 1 ≤ (i 0).val
        ∧ (i 0).val < win0_3.index ⟨4 * (i 0).val + 3, hlt⟩ (0 : Fin 3) * 1 + 1
      rw [i0]; show (4 * (i 0).val + 3) / 4 * 1 ≤ _ ∧ _ < (4 * (i 0).val + 3) / 4 * 1 + 1; omega
    | ⟨1, _⟩ =>
      show win0_3.index ⟨4 * (i 0).val + 3, hlt⟩ (1 : Fin 3) * 512 ≤ (i 1).val
        ∧ (i 1).val < win0_3.index ⟨4 * (i 0).val + 3, hlt⟩ (1 : Fin 3) * 512 + 512
      rw [i1]; omega
    | ⟨2, _⟩ =>
      show win0_3.index ⟨4 * (i 0).val + 3, hlt⟩ (2 : Fin 3) * 1 ≤ (i 2).val
        ∧ (i 2).val < win0_3.index ⟨4 * (i 0).val + 3, hlt⟩ (2 : Fin 3) * 1 + 1
      rw [i2]; omega

/-! ## Output window 4: the running sum, [2, 512, 1] -/

/-- The block index of window 4 at the grid point numbered t is (t / 4, 0, 0). -/
theorem idx4 : ∀ t : Fin cfg0.N, win0_4.index t (0 : Fin 3) = t.val / 4
    ∧ win0_4.index t (1 : Fin 3) = 0 ∧ win0_4.index t (2 : Fin 3) = 0 :=
  (by decide +kernel : ∀ t : Fin grid0.N, _)

/-- What a writing-back point t writes is block t / 4 of the assembled array. -/
theorem flushed4_eq (c : Dev nD) (blk : ℕ → Vec F S1x512x1 .f32)
    (h : ∀ t : Fin cfg0.N, t.val % 4 = 3 → (outsAt0 m c t.val t.isLt).2.2.1 = blk (t.val / 4))
    (t : Fin cfg0.N) (hf : (cfg0.win 4).flush t = true) :
    (dats m 0 c).flushed 4 t = ((cfg0.win 4).blk t).view.read (Elt F)
      (fun y : S2x512x1.Idx => blk (y 0).val (ix3 0 (y 1) (y 2))) := by
  have ht : t.val % 4 = 3 := (flush0_4 t).mp hf
  show (cfg0.win 4).cut (grid0.coords t) ((dats m 0 c).after 4 t) = _
  rw [after0_4, h t ht]
  funext y
  rw [View.read_apply]
  obtain ⟨i0, i1, i2⟩ := idx4 t
  have y0 : (y 0).val < 1 := (y 0).isLt
  have e0 : (((cfg0.win 4).blk t).view.emb y 0).val = t.val / 4 := by
    show win0_4.index t (0 : Fin 3) * 1 + 1 * (y 0).val = _
    omega
  have e : ix3 (0 : Fin 1) (((cfg0.win 4).blk t).view.emb y 1) (((cfg0.win 4).blk t).view.emb y 2)
      = (cfg0.win 4).xinj (grid0.coords t) y := by
    funext a; apply Fin.ext
    match a with
    | ⟨0, _⟩ => show 0 = (y 0).val; omega
    | ⟨1, _⟩ => show win0_4.index t (1 : Fin 3) * 512 + 1 * (y 1).val = (y 1).val; omega
    | ⟨2, _⟩ => show win0_4.index t (2 : Fin 3) * 1 + 1 * (y 2).val = (y 2).val; omega
  show blk (t.val / 4) ((cfg0.win 4).xinj (grid0.coords t) y) = blk _ _
  rw [e0]
  exact congrArg (blk (t.val / 4)) e.symm

/-- The array of window 4 after the run is its two blocks laid side by side along the leading axis. -/
theorem final_sum (c : Dev nD) (blk : ℕ → Vec F S1x512x1 .f32)
    (h : ∀ t : Fin cfg0.N, t.val % 4 = 3 → (outsAt0 m c t.val t.isLt).2.2.1 = blk (t.val / 4)) :
    (dats m 0 c).arrAt 4 cfg0.N = fun y => blk (y 0).val (ix3 0 (y 1) (y 2)) :=
  (dats m 0 c).arrAt_eq_of_cover 4 _ (flushed4_eq m c blk h) fun i => by
    have hN : cfg0.N = 8 := N_0
    have hi0 : (i 0).val < 2 := (i 0).isLt
    have hi1 : (i 1).val < 512 := (i 1).isLt
    have hi2 : (i 2).val < 1 := (i 2).isLt
    have hlt : 4 * (i 0).val + 3 < cfg0.N := by omega
    refine ⟨⟨4 * (i 0).val + 3, hlt⟩, (flush0_4 _).mpr (by show (4 * (i 0).val + 3) % 4 = 3; omega), ?_⟩
    obtain ⟨i0, i1, i2⟩ := idx4 ⟨4 * (i 0).val + 3, hlt⟩
    have q : (4 * (i 0).val + 3) / 4 = (i 0).val := by omega
    show i ∈ ((View.whole main_v0_2).slice (win0_4.rect ⟨4 * (i 0).val + 3, hlt⟩)).set
    rw [View.set_slice_whole, Rect.mem_set_unit]
    intro a
    match a with
    | ⟨0, _⟩ =>
      show win0_4.index ⟨4 * (i 0).val + 3, hlt⟩ (0 : Fin 3) * 1 ≤ (i 0).val
        ∧ (i 0).val < win0_4.index ⟨4 * (i 0).val + 3, hlt⟩ (0 : Fin 3) * 1 + 1
      rw [i0]; show (4 * (i 0).val + 3) / 4 * 1 ≤ _ ∧ _ < (4 * (i 0).val + 3) / 4 * 1 + 1; omega
    | ⟨1, _⟩ =>
      show win0_4.index ⟨4 * (i 0).val + 3, hlt⟩ (1 : Fin 3) * 512 ≤ (i 1).val
        ∧ (i 1).val < win0_4.index ⟨4 * (i 0).val + 3, hlt⟩ (1 : Fin 3) * 512 + 512
      rw [i1]; omega
    | ⟨2, _⟩ =>
      show win0_4.index ⟨4 * (i 0).val + 3, hlt⟩ (2 : Fin 3) * 1 ≤ (i 2).val
        ∧ (i 2).val < win0_4.index ⟨4 * (i 0).val + 3, hlt⟩ (2 : Fin 3) * 1 + 1
      rw [i2]; omega

end Cert.KernelIdeal.Arrays
end
-- ==== Proof.KernelTail.lean ====
/-
  The end of the program: how the two partial evaluations are combined into the result.

  The region leaves three arrays, each in two halves (one per half of the memory): the moments `a c b d`, the
  running maxima `μ c b` (the reference points the halves were evaluated at) and the masses `l c b`. The
  operations after the region bring both halves to the common reference point `max (μ 0 b) (μ 1 b)` — half `c`
  is multiplied by `exp (μ c b - max (μ 0 b) (μ 1 b))` —, add them, divide the total moment by the total mass, and
  move the query half way toward that quotient, gated entry by entry:
  `v b d + (1/2 · (moment / mass - v b d)) · k b d`.

  `combine` is that computation as one function of the five arrays it reads, for any float instance;
  `result_eq` says the program's result buffer holds it after the run; `combine_real` evaluates it on arrays of
  real numbers, where every operation is the real one as long as the total mass is not zero.
-/
import proofs.«416778_j2147483648715_3_alg».proof.Defs
import proofs.«416778_j2147483648715_3_alg».proof.Proof.Gen.KernelIdeal.Frame
import proofs.«416778_j2147483648715_3_alg».proof.Proof.Gen.Pre_finite_inputs
import proofs.«416778_j2147483648715_3_alg».proof.Proof.RealEntries
import proofs.«416778_j2147483648715_3_alg».proof.Proof.Retrieval
import Idealize.ShloMosaic.Lib.Pipeline.Value

noncomputable section
open Idealize.ShloMosaic Idealize.ShloMosaic.TcCoe Idealize.SL.Sem Idealize.ShloMosaic.ValueIdx
open Cert.KernelIdeal Cert.KernelIdeal.Gen RealEntries Retrieval
open Idealize.ShloMosaic.Pipeline (Dat)

namespace Cert.KernelIdeal.Tail

variable {F : FTy → Type} [FloatOps F]

/-- Half 0 of a two-part column array, as a 512 × 1 matrix. -/
def colPart0 (A : Vec F S2x512x1 .f32) : Vec F S512x1 .f32 :=
  shapeCast S512x1 (extractStridedSlice S1x512x1 ![0, 0, 0] A slices_S2x512x1_S1x512x1_0_0_0) shapeCasts_S1x512x1_S512x1
/-- Half 1 of a two-part column array, as a 512 × 1 matrix. -/
def colPart1 (A : Vec F S2x512x1 .f32) : Vec F S512x1 .f32 :=
  shapeCast S512x1 (extractStridedSlice S1x512x1 ![1, 0, 0] A slices_S2x512x1_S1x512x1_1_0_0) shapeCasts_S1x512x1_S512x1
/-- Half 0 of the two-part accumulator array, as a 512 × 256 matrix. -/
def accPart0 (A : Vec F S2x512x256 .f32) : Vec F S512x256 .f32 :=
  shapeCast S512x256 (extractStridedSlice S1x512x256 ![0, 0, 0] A slices_S2x512x256_S1x512x256_0_0_0) shapeCasts_S1x512x256_S512x256
/-- Half 1 of the two-part accumulator array, as a 512 × 256 matrix. -/
def accPart1 (A : Vec F S2x512x256 .f32) : Vec F S512x256 .f32 :=
  shapeCast S512x256 (extractStridedSlice S1x512x256 ![1, 0, 0] A slices_S2x512x256_S1x512x256_1_0_0) shapeCasts_S1x512x256_S512x256

/-- The common reference point of the two halves: the larger of their two running maxima. -/
def refPoint (A3 : Vec F S2x512x1 .f32) : Vec F S512x1 .f32 := maximumf (colPart0 A3) (colPart1 A3)
/-- The factor that brings half 0 to the common reference point. -/
def scale0 (A3 : Vec F S2x512x1 .f32) : Vec F S512x1 .f32 := Host.exp (F := F) (subf (colPart0 A3) (refPoint A3))
/-- The factor that brings half 1 to the common reference point. -/
def scale1 (A3 : Vec F S2x512x1 .f32) : Vec F S512x1 .f32 := Host.exp (F := F) (subf (colPart1 A3) (refPoint A3))
/-- The total mass at the common reference point. -/
def totalMass (A3 A4 : Vec F S2x512x1 .f32) : Vec F S512x1 .f32 :=
  addf (mulf (colPart0 A4) (scale0 A3)) (mulf (colPart1 A4) (scale1 A3))
/-- The total moment at the common reference point. -/
def totalMoment (A2 : Vec F S2x512x256 .f32) (A3 : Vec F S2x512x1 .f32) : Vec F S512x256 .f32 :=
  addf (mulf (accPart0 A2) (broadcastInDim S512x256 ![0, 1] bcast_S512x1_S512x256_0_1 (scale0 A3)))
    (mulf (accPart1 A2) (broadcastInDim S512x256 ![0, 1] bcast_S512x1_S512x256_0_1 (scale1 A3)))

/-- (d1) the host operations after the region, as one function of the three output arrays and the two arguments they read -/
def combine (A2 : Vec F S2x512x256 .f32) (A3 A4 : Vec F S2x512x1 .f32) (V K : Vec F S512x256 .f32) : Vec F S512x256 .f32 :=
  addf V
    (mulf
      (mulf (broadcastInDim S512x256 ![] bcast_S_S512x256 (constant (F := F) S_ .f32 0x3F000000#32))
        (subf
          (Host.divf (F := F) (totalMoment A2 A3)
            (broadcastInDim S512x256 ![0, 1] bcast_S512x1_S512x256_0_1 (totalMass A3 A4)))
          V))
      K)

set_option maxHeartbeats 4000000 in
/-- The 33 operations run from any contents of the buffers: the result buffer holds `combine` of the five buffers they read. -/
theorem after_hostOps1 (W : Valuation τ sig (Elt F)) :
    StableHlo.after hostOps1 W (Proc.devRef .tc main_v32)
      = combine (F := F) (W (Proc.devRef .tc main_v0_0)) (W (Proc.devRef .tc main_v0_1)) (W (Proc.devRef .tc main_v0_2))
          (W (Proc.devRef .tc main_arg0)) (W (Proc.devRef .tc main_arg1)) := by
  after_results_simp
  rfl

/-- (d2) what the program's result buffer holds after the run -/
theorem result_eq (m : (ℓ : Loc nD τ sig) → Buf (Elt F) ℓ) (c : Dev nD) :
    Pipeline.afterTail₀ cfgs (dats m) 0 (V0 m) [hostOps1] c main_v32
      = combine ((dats m 0 c).arrAt 2 cfg0.N) ((dats m 0 c).arrAt 3 cfg0.N) ((dats m 0 c).arrAt 4 cfg0.N)
          (m ((c.tc : Thread nD τ).loc main_arg0)) (m ((c.tc : Thread nD τ).loc main_arg1)) := by
  unfold Pipeline.afterTail₀
  show StableHlo.after hostOps1 (Pipeline.withArrays spec0 c (V0 m c) fun w => (dats m 0 c).arrAt w cfg0.N)
    (Proc.devRef .tc main_v32) = _
  rw [after_hostOps1]
  have e2 : Pipeline.withArrays spec0 c (V0 m c) (fun w => (dats m 0 c).arrAt w cfg0.N) (Proc.devRef .tc main_v0_0)
      = (dats m 0 c).arrAt 2 cfg0.N := Pipeline.withArrays_arr spec0 launch0.win.arr_inj c _ _ 2
  have e3 : Pipeline.withArrays spec0 c (V0 m c) (fun w => (dats m 0 c).arrAt w cfg0.N) (Proc.devRef .tc main_v0_1)
      = (dats m 0 c).arrAt 3 cfg0.N := Pipeline.withArrays_arr spec0 launch0.win.arr_inj c _ _ 3
  have e4 : Pipeline.withArrays spec0 c (V0 m c) (fun w => (dats m 0 c).arrAt w cfg0.N) (Proc.devRef .tc main_v0_2)
      = (dats m 0 c).arrAt 4 cfg0.N := Pipeline.withArrays_arr spec0 launch0.win.arr_inj c _ _ 4
  have eV : Pipeline.withArrays spec0 c (V0 m c) (fun w => (dats m 0 c).arrAt w cfg0.N) (Proc.devRef .tc main_arg0)
      = m ((c.tc : Thread nD τ).loc main_arg0) :=
    (Pipeline.withArrays_arr spec0 launch0.win.arr_inj c _ _ 0).trans
      (((dats m 0 c).arrAt_in 0 rfl _).trans ((A_eq m c 0).trans (V_main_arg0 m c)))
  have eK : Pipeline.withArrays spec0 c (V0 m c) (fun w => (dats m 0 c).arrAt w cfg0.N) (Proc.devRef .tc main_arg1)
      = m ((c.tc : Thread nD τ).loc main_arg1) :=
    (Pipeline.withArrays_of_ne _ c (V0 m c) _ main_arg1 (by exact (by decide : ∀ w, Pipeline.arrRef spec0 w ≠ main_arg1))).trans
      (V_main_arg1 m c)
  rw [e2, e3, e4, eV, eK]

/-! ### The four parts read at an index -/

theorem colPart0_apply (A : Vec F S2x512x1 .f32) (b : Fin 512) (z : Fin 1) : colPart0 A (ix2 b z) = A (ix3 0 b z) := by
  unfold colPart0
  refine (shapeCast_apply _ shapeCasts_S1x512x1_S512x1 (ix2 b z) (ix3 0 b z) ?_).trans ?_
  · rw [Shape.rowMajor_val_three, Shape.rowMajor_val_two]
    show ((0 : ℕ) * 512 + b.val) * 1 + z.val = b.val * 1 + z.val
    omega
  · exact extractStridedSlice_apply _ A _ (ix3 0 b z) (ix3 0 b z) (fun a => match a with
      | ⟨0, _⟩ => rfl
      | ⟨1, _⟩ => by show b.val = 0 + b.val; omega
      | ⟨2, _⟩ => by show z.val = 0 + z.val; omega)

theorem colPart1_apply (A : Vec F S2x512x1 .f32) (b : Fin 512) (z : Fin 1) : colPart1 A (ix2 b z) = A (ix3 1 b z) := by
  unfold colPart1
  refine (shapeCast_apply _ shapeCasts_S1x512x1_S512x1 (ix2 b z) (ix3 0 b z) ?_).trans ?_
  · rw [Shape.rowMajor_val_three, Shape.rowMajor_val_two]
    show ((0 : ℕ) * 512 + b.val) * 1 + z.val = b.val * 1 + z.val
    omega
  · exact extractStridedSlice_apply _ A _ (ix3 0 b z) (ix3 1 b z) (fun a => match a with
      | ⟨0, _⟩ => rfl
      | ⟨1, _⟩ => by show b.val = 0 + b.val; omega
      | ⟨2, _⟩ => by show z.val = 0 + z.val; omega)

theorem accPart0_apply (A : Vec F S2x512x256 .f32) (b : Fin 512) (d : Fin 256) : accPart0 A (ix2 b d) = A (ix3 0 b d) := by
  unfold accPart0
  refine (shapeCast_apply _ shapeCasts_S1x512x256_S512x256 (ix2 b d) (ix3 0 b d) ?_).trans ?_
  · rw [Shape.rowMajor_val_three, Shape.rowMajor_val_two]
    show ((0 : ℕ) * 512 + b.val) * 256 + d.val = b.val * 256 + d.val
    omega
  · exact extractStridedSlice_apply _ A _ (ix3 0 b d) (ix3 0 b d) (fun a => match a with
      | ⟨0, _⟩ => rfl
      | ⟨1, _⟩ => by show b.val = 0 + b.val; omega
      | ⟨2, _⟩ => by show d.val = 0 + d.val; omega)

theorem accPart1_apply (A : Vec F S2x512x256 .f32) (b : Fin 512) (d : Fin 256) : accPart1 A (ix2 b d) = A (ix3 1 b d) := by
  unfold accPart1
  refine (shapeCast_apply _ shapeCasts_S1x512x256_S512x256 (ix2 b d) (ix3 0 b d) ?_).trans ?_
  · rw [Shape.rowMajor_val_three, Shape.rowMajor_val_two]
    show ((0 : ℕ) * 512 + b.val) * 256 + d.val = b.val * 256 + d.val
    omega
  · exact extractStridedSlice_apply _ A _ (ix3 0 b d) (ix3 1 b d) (fun a => match a with
      | ⟨0, _⟩ => rfl
      | ⟨1, _⟩ => by show b.val = 0 + b.val; omega
      | ⟨2, _⟩ => by show d.val = 0 + d.val; omega)

/-- A column broadcast along the rows' entries reads its column. -/
theorem bcastCol_apply {α : Type} (x : S512x1.Idx → α) (b : Fin 512) (d : Fin 256) :
    broadcastInDim S512x256 ![0, 1] bcast_S512x1_S512x256_0_1 x (ix2 b d) = x (ix2 b 0) :=
  broadcastInDim_apply _ _ x (ix2 b d) (ix2 b 0) (fun a => match a with
    | ⟨0, _⟩ => rfl
    | ⟨1, _⟩ => rfl)

/-- A scalar broadcast to the matrix reads the scalar. -/
theorem bcastScalar_apply {α : Type} (x : S_.Idx → α) (j : S512x256.Idx) :
    broadcastInDim S512x256 ![] bcast_S_S512x256 x j = x ix0 :=
  broadcastInDim_apply _ _ x j ix0 (fun a => a.elim0)

/-! ### The combination on real entries -/

theorem hostExp_apply {s : Shape} (x : FVec Ideal s .f32) (i : s.Idx) : Host.exp (F := Ideal) x i = Ideal.exp (x i) := rfl
theorem hostDivf_apply {s : Shape} (x y : FVec Ideal s .f32) (i : s.Idx) : Host.divf (F := Ideal) x y i = Ideal.div (x i) (y i) := rfl

section RealEntries
variable (a : Fin 2 → Fin 512 → Fin 256 → ℝ) (μ l : Fin 2 → Fin 512 → ℝ)

/-- The common reference point is the larger of the two maxima. -/
theorem refPoint_real (b : Fin 512) (z : Fin 1) :
    refPoint (F := Ideal) (lift3 fun c b (_ : Fin 1) => μ c b) (ix2 b z) = ((max (μ 0 b) (μ 1 b) : ℝ) : EReal) := by
  unfold refPoint
  refine (maximumf_apply _ _ _).trans ?_
  rw [colPart0_apply, colPart1_apply]
  exact max_coe_coe _ _

/-- The factor of half 0 is the real exponential of its maximum less the common one. -/
theorem scale0_real (b : Fin 512) (z : Fin 1) :
    scale0 (F := Ideal) (lift3 fun c b (_ : Fin 1) => μ c b) (ix2 b z)
      = ((Real.exp (μ 0 b - max (μ 0 b) (μ 1 b)) : ℝ) : EReal) := by
  unfold scale0
  refine (hostExp_apply _ _).trans ?_
  rw [subf_apply, refPoint_real, colPart0_apply]
  show Ideal.exp (((μ 0 b : ℝ) : EReal) - ((max (μ 0 b) (μ 1 b) : ℝ) : EReal)) = _
  rw [← EReal.coe_sub, Ideal.exp_coe]

/-- The factor of half 1 likewise. -/
theorem scale1_real (b : Fin 512) (z : Fin 1) :
    scale1 (F := Ideal) (lift3 fun c b (_ : Fin 1) => μ c b) (ix2 b z)
      = ((Real.exp (μ 1 b - max (μ 0 b) (μ 1 b)) : ℝ) : EReal) := by
  unfold scale1
  refine (hostExp_apply _ _).trans ?_
  rw [subf_apply, refPoint_real, colPart1_apply]
  show Ideal.exp (((μ 1 b : ℝ) : EReal) - ((max (μ 0 b) (μ 1 b) : ℝ) : EReal)) = _
  rw [← EReal.coe_sub, Ideal.exp_coe]

/-- The total mass is the real sum of the two rescaled masses. -/
theorem totalMass_real (b : Fin 512) (z : Fin 1) :
    totalMass (F := Ideal) (lift3 fun c b (_ : Fin 1) => μ c b) (lift3 fun c b (_ : Fin 1) => l c b) (ix2 b z)
      = ((l 0 b * Real.exp (μ 0 b - max (μ 0 b) (μ 1 b)) + l 1 b * Real.exp (μ 1 b - max (μ 0 b) (μ 1 b)) : ℝ) : EReal) := by
  unfold totalMass
  refine (addf_apply _ _ _).trans ?_
  rw [mulf_apply, mulf_apply, scale0_real, scale1_real, colPart0_apply, colPart1_apply]
  show ((l 0 b : ℝ) : EReal) * _ + ((l 1 b : ℝ) : EReal) * _ = _
  rw [← EReal.coe_mul, ← EReal.coe_mul, ← EReal.coe_add]

/-- The total moment is the real sum of the two rescaled moments. -/
theorem totalMoment_real (b : Fin 512) (d : Fin 256) :
    totalMoment (F := Ideal) (lift3 a) (lift3 fun c b (_ : Fin 1) => μ c b) (ix2 b d)
      = ((a 0 b d * Real.exp (μ 0 b - max (μ 0 b) (μ 1 b)) + a 1 b d * Real.exp (μ 1 b - max (μ 0 b) (μ 1 b)) : ℝ) : EReal) := by
  unfold totalMoment
  refine (addf_apply _ _ _).trans ?_
  rw [mulf_apply, mulf_apply, bcastCol_apply, bcastCol_apply, scale0_real, scale1_real, accPart0_apply, accPart1_apply]
  show ((a 0 b d : ℝ) : EReal) * _ + ((a 1 b d : ℝ) : EReal) * _ = _
  rw [← EReal.coe_mul, ← EReal.coe_mul, ← EReal.coe_add]

end RealEntries

/-- (d3) on real entries: the two partial evaluations brought to a common reference point, divided, and the update applied -/
theorem combine_real (a : Fin 2 → Fin 512 → Fin 256 → ℝ) (μ l : Fin 2 → Fin 512 → ℝ) (v k : Fin 512 → Fin 256 → ℝ)
    (hpos : ∀ b, l 0 b * Real.exp (μ 0 b - max (μ 0 b) (μ 1 b)) + l 1 b * Real.exp (μ 1 b - max (μ 0 b) (μ 1 b)) ≠ 0) :
    combine (F := Ideal) (lift3 a) (lift3 fun c b (_ : Fin 1) => μ c b) (lift3 fun c b (_ : Fin 1) => l c b) (lift2 v) (lift2 k)
      = lift2 (fun b d => v b d + (1 / 2 * ((a 0 b d * Real.exp (μ 0 b - max (μ 0 b) (μ 1 b)) + a 1 b d * Real.exp (μ 1 b - max (μ 0 b) (μ 1 b)))
          / (l 0 b * Real.exp (μ 0 b - max (μ 0 b) (μ 1 b)) + l 1 b * Real.exp (μ 1 b - max (μ 0 b) (μ 1 b))) - v b d)) * k b d) := by
  funext y
  obtain ⟨b, d, rfl⟩ : ∃ b d, y = ix2 b d := ⟨y 0, y 1, eq_ix2 y⟩
  unfold combine
  refine (addf_apply _ _ _).trans ?_
  rw [mulf_apply, mulf_apply, subf_apply, hostDivf_apply, bcastScalar_apply, bcastCol_apply, totalMass_real, totalMoment_real,
    div_coe_coe _ (hpos b)]
  show ((v b d : ℝ) : EReal) + (Ideal.ofBits .f32 0x3F000000#32 * (_ - ((v b d : ℝ) : EReal))) * ((k b d : ℝ) : EReal) = _
  rw [ofBits_half, ← EReal.coe_sub, ← EReal.coe_mul, ← EReal.coe_mul, ← EReal.coe_add]
  rfl

end Cert.KernelIdeal.Tail
end
-- ==== Proof.KernelValue.lean ====
/-
  The kernel's result, as real numbers.

  Each half of the memory ends its sweep by copying out its three running quantities; the two halves' copies make
  up the three arrays the host operations after the kernel read. Those operations bring the two halves to the common
  reference point max(μ₀, μ₁) — each half's sum and weighted sum multiplied by exp(μ_q - max(μ₀, μ₁)) —, add them,
  divide, and apply the update. By the invariant of the streaming evaluation the two rescaled halves add up to the
  mass and the moment of the WHOLE memory relative to that common point, and their quotient does not depend on the
  reference point: it is the retrieved vector.
-/
import proofs.«416778_j2147483648715_3_alg».proof.Proof.OnlineInvariant
import proofs.«416778_j2147483648715_3_alg».proof.Proof.KernelArrays
import proofs.«416778_j2147483648715_3_alg».proof.Proof.KernelTail

set_option maxRecDepth 16384
noncomputable section
open scoped BigOperators
open Idealize.ShloMosaic Idealize.ShloMosaic.TcCoe Idealize.SL.Sem Idealize.ShloMosaic.ValueIdx
open Idealize.ShloMosaic.Pipeline (Dat)

namespace Cert.KernelIdeal.Online

open Cert.KernelIdeal Cert.KernelIdeal.Gen Cert.KernelIdeal.Points Cert.KernelIdeal.Step Cert.KernelIdeal.Inputs
open Cert.KernelIdeal.Arrays Cert.KernelIdeal.Tail
open RealEntries Retrieval MemoryRows

variable (m : (ℓ : Loc nD τ sig) → Buf (Elt Ideal) ℓ) (c : Dev nD)
variable (v k : Fin 512 → Fin 256 → ℝ) (M : Fin 32768 → Fin 256 → ℝ)

/-- The last point of half `q`. -/
theorem last_lt (q : Fin 2) : 4 * q.val + 3 < cfg0.N := by have := q.isLt; have : cfg0.N = 8 := N_0; omega

/-- The reference point half `q` ends at: its running maximum after its last point. -/
def halfMax (q : Fin 2) (b : Fin 512) : ℝ := runMax m c (4 * q.val + 3) (last_lt q) b

variable (hv : m ((c.tc : Thread nD τ).loc main_arg0) = lift2 v) (hk : m ((c.tc : Thread nD τ).loc main_arg1) = lift2 k)
  (hM : m ((c.tc : Thread nD τ).loc main_arg2) = lift2 M)

/-- What a half copies out is what its running quantities hold after its last point. -/
theorem emitted (t : Fin cfg0.N) (h1 : t.val % 4 = 3) :
    (outsAt0 m c t.val t.isLt).1 = k0_pay3 (outsAt0 m c t.val t.isLt).2.2.2.2.2
    ∧ (outsAt0 m c t.val t.isLt).2.1 = k0_pay4 (outsAt0 m c t.val t.isLt).2.2.2.1
    ∧ (outsAt0 m c t.val t.isLt).2.2.1 = k0_pay5 (outsAt0 m c t.val t.isLt).2.2.2.2.1 := by
  have h0 : ¬t.val % 4 = 0 := by omega
  exact ⟨(acc_emitted m c t h1).trans (congrArg k0_pay3 (acc_at_next m c t h0).symm),
    (max_emitted m c t h1).trans (congrArg k0_pay4 (max_at_next m c t h0).symm),
    (sum_emitted m c t h1).trans (congrArg k0_pay5 (sum_at_next m c t h0).symm)⟩

/-- A point that ends a half is the last point of half ⌊t/4⌋. -/
theorem eq_last (t : Fin cfg0.N) (h1 : t.val % 4 = 3) : ∃ hq : t.val / 4 < 2, t = ⟨4 * (⟨t.val / 4, hq⟩ : Fin 2).val + 3, last_lt _⟩ := by
  have hN : t.val < 8 := lt_of_lt_of_eq t.isLt N_0
  exact ⟨by omega, Fin.ext (by show t.val = 4 * (t.val / 4) + 3; omega)⟩

include hv hM in
/-- The array of weighted sums after the run: per half, the moment of its rows relative to its reference point. -/
theorem acc_array : (dats m 0 c).arrAt 2 cfg0.N
    = lift3 (fun (q : Fin 2) b d => moment v M b d (halfMax m c q b) (seen (4 * q.val + 3))) := by
  rw [final_acc m c (fun q => if hq : q < 2 then lift3 (fun (_ : Fin 1) b d => moment v M b d (halfMax m c ⟨q, hq⟩ b) (seen (4 * q + 3))) else fun _ => 0)]
  · funext (y : S2x512x256.Idx)
    have hq : (y 0).val < 2 := (y 0).isLt
    show (if hq : (y 0).val < 2 then lift3 (fun (_ : Fin 1) b d => moment v M b d (halfMax m c ⟨(y 0).val, hq⟩ b) (seen (4 * (y 0).val + 3))) else fun _ => 0) (ix3 0 (y 1) (y 2)) = _
    rw [dif_pos hq]
    rfl
  · intro t h1
    obtain ⟨hq, ht⟩ := eq_last t h1
    rw [dif_pos hq, (emitted m c t h1).1]
    have I := inv m c v M hv hM t.val t.isLt
    rw [I.hacc, emit_acc]
    have e : runMax m c t.val t.isLt = halfMax m c ⟨t.val / 4, hq⟩ := by
      unfold halfMax; congr 1 <;> first | exact congrArg Fin.val ht | skip
    have e' : seen t.val = seen (4 * (t.val / 4) + 3) := congrArg seen (congrArg Fin.val ht)
    rw [e, e']

include hv hM in
/-- The array of maxima after the run: per half, its reference point. -/
theorem max_array : (dats m 0 c).arrAt 3 cfg0.N
    = lift3 (fun (q : Fin 2) b (_ : Fin 1) => halfMax m c q b) := by
  rw [final_max m c (fun q => if hq : q < 2 then lift3 (fun (_ : Fin 1) b (_ : Fin 1) => halfMax m c ⟨q, hq⟩ b) else fun _ => 0)]
  · funext (y : S2x512x1.Idx)
    have hq : (y 0).val < 2 := (y 0).isLt
    show (if hq : (y 0).val < 2 then lift3 (fun (_ : Fin 1) b (_ : Fin 1) => halfMax m c ⟨(y 0).val, hq⟩ b) else fun _ => 0) (ix3 0 (y 1) (y 2)) = _
    rw [dif_pos hq]
    rfl
  · intro t h1
    obtain ⟨hq, ht⟩ := eq_last t h1
    rw [dif_pos hq, (emitted m c t h1).2.1]
    have I := inv m c v M hv hM t.val t.isLt
    rw [I.hmax, emit_col]
    have e : runMax m c t.val t.isLt = halfMax m c ⟨t.val / 4, hq⟩ := by
      unfold halfMax; congr 1 <;> first | exact congrArg Fin.val ht | skip
    rw [e]

include hv hM in
/-- The array of sums after the run: per half, the mass of its rows relative to its reference point. -/
theorem sum_array : (dats m 0 c).arrAt 4 cfg0.N
    = lift3 (fun (q : Fin 2) b (_ : Fin 1) => mass v M b (halfMax m c q b) (seen (4 * q.val + 3))) := by
  rw [final_sum m c (fun q => if hq : q < 2 then lift3 (fun (_ : Fin 1) b (_ : Fin 1) => mass v M b (halfMax m c ⟨q, hq⟩ b) (seen (4 * q + 3))) else fun _ => 0)]
  · funext (y : S2x512x1.Idx)
    have hq : (y 0).val < 2 := (y 0).isLt
    show (if hq : (y 0).val < 2 then lift3 (fun (_ : Fin 1) b (_ : Fin 1) => mass v M b (halfMax m c ⟨(y 0).val, hq⟩ b) (seen (4 * (y 0).val + 3))) else fun _ => 0) (ix3 0 (y 1) (y 2)) = _
    rw [dif_pos hq]
    rfl
  · intro t h1
    obtain ⟨hq, ht⟩ := eq_last t h1
    rw [dif_pos hq, (emitted m c t h1).2.2]
    have I := inv m c v M hv hM t.val t.isLt
    rw [I.hsum, emit_col']
    have e : runMax m c t.val t.isLt = halfMax m c ⟨t.val / 4, hq⟩ := by
      unfold halfMax; congr 1 <;> first | exact congrArg Fin.val ht | skip
    have e' : seen t.val = seen (4 * (t.val / 4) + 3) := congrArg seen (congrArg Fin.val ht)
    rw [e, e']

/-- The two halves' moments, each brought from its own reference point to a common one, add up to the moment of
    the whole memory. -/
theorem halves_moment (b : Fin 512) (d : Fin 256) (μ0 μ1 X : ℝ) :
    moment v M b d μ0 (seen 3) * Real.exp (μ0 - X) + moment v M b d μ1 (seen 7) * Real.exp (μ1 - X)
      = moment v M b d X Finset.univ := by
  rw [mul_comm, moment_rescale, mul_comm (moment v M b d μ1 (seen 7)), moment_rescale,
    ← moment_union v M b d X disjoint_halves, seen_halves]

/-- The same for the masses. -/
theorem halves_mass (b : Fin 512) (μ0 μ1 X : ℝ) :
    mass v M b μ0 (seen 3) * Real.exp (μ0 - X) + mass v M b μ1 (seen 7) * Real.exp (μ1 - X)
      = mass v M b X Finset.univ := by
  rw [mul_comm, mass_rescale, mul_comm (mass v M b μ1 (seen 7)), mass_rescale,
    ← mass_union v M b X disjoint_halves, seen_halves]

theorem univ_nonempty : (Finset.univ : Finset (Fin 32768)).Nonempty := ⟨⟨0, by decide⟩, Finset.mem_univ _⟩

include hv hk hM in
/-- What the program's result buffer holds after the run: the update, entry by entry. -/
theorem result_real : Pipeline.afterTail₀ cfgs (dats m) 0 (V0 m) [hostOps1] c main_v32 = lift2 (updated v k M) := by
  rw [result_eq m c, acc_array m c v M hv hM, max_array m c v M hv hM, sum_array m c v M hv hM, hv, hk]
  have hpos : ∀ b, mass v M b (halfMax m c 0 b) (seen (4 * (0 : Fin 2).val + 3)) * Real.exp (halfMax m c 0 b - max (halfMax m c 0 b) (halfMax m c 1 b))
      + mass v M b (halfMax m c 1 b) (seen (4 * (1 : Fin 2).val + 3)) * Real.exp (halfMax m c 1 b - max (halfMax m c 0 b) (halfMax m c 1 b)) ≠ 0 := by
    intro b
    show mass v M b (halfMax m c 0 b) (seen 3) * _ + mass v M b (halfMax m c 1 b) (seen 7) * _ ≠ 0
    rw [halves_mass]
    exact (mass_pos v M b _ univ_nonempty).ne'
  rw [combine_real (fun q b d => moment v M b d (halfMax m c q b) (seen (4 * q.val + 3))) (halfMax m c)
    (fun q b => mass v M b (halfMax m c q b) (seen (4 * q.val + 3))) v k hpos]
  refine congrArg lift2 (funext fun b => funext fun d => ?_)
  show v b d + (1 / 2 * ((moment v M b d (halfMax m c 0 b) (seen 3) * Real.exp (halfMax m c 0 b - max (halfMax m c 0 b) (halfMax m c 1 b))
      + moment v M b d (halfMax m c 1 b) (seen 7) * Real.exp (halfMax m c 1 b - max (halfMax m c 0 b) (halfMax m c 1 b)))
      / (mass v M b (halfMax m c 0 b) (seen 3) * Real.exp (halfMax m c 0 b - max (halfMax m c 0 b) (halfMax m c 1 b))
      + mass v M b (halfMax m c 1 b) (seen 7) * Real.exp (halfMax m c 1 b - max (halfMax m c 0 b) (halfMax m c 1 b))) - v b d)) * k b d = updated v k M b d
  rw [halves_moment, halves_mass, quotient_eq_retrieved]
  rfl

end Cert.KernelIdeal.Online
end
-- ==== Proof.RefValue.lean ====
/-
  The reference program's result, read as real numbers.

  From real inputs v, k (512 x 256) and M (32768 x 256) the reference forms, for memory row n and query row b,
  the score x[n,b] = -1/2 * ((|M n|^2 - 2 <M n, v b>) + |v b|^2), which is the logit of the pair shifted by
  -|v b|^2 / 2, an amount that is the same for every memory row. It then takes the column maximum mu[b] (a maximum
  from -infinity over 32768 reals, hence a real), the weights e[n,b] = exp(x[n,b] - mu[b]), their column sum S[b]
  (positive: a sum of exponentials over a non-empty set), the normalised weights e[n,b] / S[b], the weighted sum of
  the memory rows sum_n e[n,b] / S[b] * M[n,d], and the update v + (1/2 * (that - v)) * k. Each of the program's
  stages is shown to be an array of reals, one stage from the one before; the weighted sum is the retrieved vector
  because the quotient does not depend on the shift nor on the reference point; so the result is the update.
-/
import proofs.«416778_j2147483648715_3_alg».proof.Defs
import proofs.«416778_j2147483648715_3_alg».proof.Proof.Gen.ReferenceIdeal.Run
import proofs.«416778_j2147483648715_3_alg».proof.Proof.Gen.ReferenceIdeal.Read
import proofs.«416778_j2147483648715_3_alg».proof.Proof.RealEntries
import proofs.«416778_j2147483648715_3_alg».proof.Proof.Retrieval

noncomputable section

open scoped BigOperators

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo
open RealEntries

section Stages

variable (v k : Fin 512 → Fin 256 → ℝ) (M : Fin 32768 → Fin 256 → ℝ)

/-! ### The real quantities the reference computes, stage by stage -/

/-- The squared norm of memory row n. -/
def m2 (n : Fin 32768) : ℝ := ∑ d, M n d * M n d
/-- The squared norm of query row b. -/
def v2 (b : Fin 512) : ℝ := ∑ d, v b d * v b d
/-- The inner product of memory row n and query row b. -/
def cross (n : Fin 32768) (b : Fin 512) : ℝ := ∑ d, M n d * v b d
/-- The score of memory row n for query row b: minus half the squared distance, the square expanded. -/
def score (n : Fin 32768) (b : Fin 512) : ℝ := -(1 / 2) * ((m2 M n - 2 * cross v M n b) + v2 v b)

/-- The score is the logit shifted by an amount that does not depend on the memory row. -/
theorem score_eq (n : Fin 32768) (b : Fin 512) :
    score v M n b = Retrieval.logit v M b n + (-(v2 v b) / 2) := by
  unfold score m2 cross v2 Retrieval.logit
  have e : ∑ d, M n d * v b d = ∑ d, v b d * M n d := Finset.sum_congr rfl fun d _ => mul_comm _ _
  rw [e]; ring

/-- The largest score of a column: the maximum, taken from -∞, of the column's 32768 scores. -/
def mu (b : Fin 512) : ℝ :=
  ((Finset.univ : Finset (Fin 32768)).fold max (⊥ : EReal) (fun n => ((score v M n b : ℝ) : EReal))).toReal

theorem mu_spec (b : Fin 512) :
    (Finset.univ : Finset (Fin 32768)).fold max (⊥ : EReal) (fun n => ((score v M n b : ℝ) : EReal))
      = ((mu v M b : ℝ) : EReal) := by
  obtain ⟨r, hr⟩ := fold_max_bot_real (n := 32768) (by norm_num) (fun n => ((score v M n b : ℝ) : EReal))
    (fun n => score v M n b) (fun _ => rfl)
  unfold mu; rw [hr, EReal.toReal_coe]

/-- The weight of memory row n in column b before normalisation. -/
def wexp (n : Fin 32768) (b : Fin 512) : ℝ := Real.exp (score v M n b - mu v M b)
/-- The normaliser of column b. -/
def total (b : Fin 512) : ℝ := ∑ n, wexp v M n b
/-- The weighted sum of the memory rows with the normalised weights of column b. -/
def contraction (b : Fin 512) (d : Fin 256) : ℝ := ∑ n, wexp v M n b / total v M b * M n d

theorem total_pos (b : Fin 512) : 0 < total v M b :=
  Finset.sum_pos (fun n _ => Real.exp_pos _) ⟨⟨0, by norm_num⟩, Finset.mem_univ _⟩

/-- Normalising each weight first and summing afterwards gives the retrieved vector. -/
theorem contraction_eq_retrieved (b : Fin 512) (d : Fin 256) :
    contraction v M b d = Retrieval.retrieved v M b d := by
  haveI : NeZero 32768 := ⟨by norm_num⟩
  rw [← Retrieval.normalised_sum_eq_retrieved v M b d (-(v2 v b) / 2) (mu v M b)]
  unfold contraction total wexp
  simp only [score_eq]

/-! ### The stages of the reference, each an array of reals -/

theorem st0 (i : S32768x256.Idx) :
    val_main_v0 (F := Ideal) (lift2 M) i = ((M (i 0) (i 1) * M (i 0) (i 1) : ℝ) : EReal) := by
  rw [val_main_v0_apply, Ideal.mulf_def, EReal.coe_mul]
  rfl

theorem st1 (i : S32768.Idx) :
    val_main_v1 (F := Ideal) (lift2 M) i = ((m2 M (i 0) : ℝ) : EReal) := by
  rw [val_main_v1_apply, val_main_cst_apply, Ideal.ofBits_def, ofBits_zero]
  simp only [st0]
  rw [← coe_sum, ← EReal.coe_add, zero_add]
  rfl

theorem st2 (i : S512x256.Idx) :
    val_main_v2 (F := Ideal) (lift2 v) i = ((v (i 0) (i 1) * v (i 0) (i 1) : ℝ) : EReal) := by
  rw [val_main_v2_apply, Ideal.mulf_def, EReal.coe_mul]
  rfl

theorem st3 (i : S512.Idx) :
    val_main_v3 (F := Ideal) (lift2 v) i = ((v2 v (i 0) : ℝ) : EReal) := by
  rw [val_main_v3_apply, val_main_cst_0_apply, Ideal.ofBits_def, ofBits_zero]
  simp only [st2]
  rw [← coe_sum, ← EReal.coe_add, zero_add]
  rfl

theorem st4 (i : S32768x512.Idx) :
    val_main_v4 (F := Ideal) (lift2 v) (lift2 M) i = ((cross v M (i 0) (i 1) : ℝ) : EReal) := by
  rw [val_main_v4_apply]
  unfold cross
  rw [coe_sum]
  refine Finset.sum_congr rfl fun d _ => ?_
  rw [EReal.coe_mul]
  rfl

theorem st5 (i : S32768x1.Idx) :
    val_main_v5 (F := Ideal) (lift2 M) i = ((m2 M (i 0) : ℝ) : EReal) := by
  rw [val_main_v5_apply, st1]
  rfl

theorem st6 (i : S32768x512.Idx) : val_main_v6 (F := Ideal) i = ((2 : ℝ) : EReal) := by
  rw [val_main_v6_apply, val_main_cst_1_apply, Ideal.ofBits_def, ofBits_two]

theorem st7 (i : S32768x512.Idx) :
    val_main_v7 (F := Ideal) (lift2 v) (lift2 M) i = ((2 * cross v M (i 0) (i 1) : ℝ) : EReal) := by
  rw [val_main_v7_apply, st6, st4, Ideal.mulf_def, EReal.coe_mul]

theorem st8 (i : S32768x512.Idx) :
    val_main_v8 (F := Ideal) (lift2 M) i = ((m2 M (i 0) : ℝ) : EReal) := by
  rw [val_main_v8_apply, st5]
  rfl

theorem st9 (i : S32768x512.Idx) :
    val_main_v9 (F := Ideal) (lift2 v) (lift2 M) i = ((m2 M (i 0) - 2 * cross v M (i 0) (i 1) : ℝ) : EReal) := by
  rw [val_main_v9_apply, st8, st7, Ideal.subf_def, EReal.coe_sub]

theorem st10 (i : S1x512.Idx) :
    val_main_v10 (F := Ideal) (lift2 v) i = ((v2 v (i 1) : ℝ) : EReal) := by
  rw [val_main_v10_apply, st3]
  rfl

theorem st11 (i : S32768x512.Idx) :
    val_main_v11 (F := Ideal) (lift2 v) i = ((v2 v (i 1) : ℝ) : EReal) := by
  rw [val_main_v11_apply, st10]
  rfl

theorem st12 (i : S32768x512.Idx) :
    val_main_v12 (F := Ideal) (lift2 v) (lift2 M) i
      = (((m2 M (i 0) - 2 * cross v M (i 0) (i 1)) + v2 v (i 1) : ℝ) : EReal) := by
  rw [val_main_v12_apply, st9, st11, Ideal.addf_def, EReal.coe_add]

theorem st13 (i : S32768x512.Idx) : val_main_v13 (F := Ideal) i = ((-(1 / 2) : ℝ) : EReal) := by
  rw [val_main_v13_apply, val_main_cst_2_apply, Ideal.ofBits_def, ofBits_neg_half]

theorem st14 (i : S32768x512.Idx) :
    val_main_v14 (F := Ideal) (lift2 v) (lift2 M) i = ((score v M (i 0) (i 1) : ℝ) : EReal) := by
  rw [val_main_v14_apply, st13, st12, Ideal.mulf_def, ← EReal.coe_mul]
  rfl

/-- The column index j with the row n put back is (n, j). -/
theorem lift_col (h : S32768x512.Reduces [0] S512) (j : S512.Idx) (n : Fin 32768) :
    h.lift j n = (fun a => match a with
      | ⟨0, _⟩ => ⟨n.val, n.isLt⟩
      | ⟨1, _⟩ => ⟨(j 0).val, (j 0).isLt⟩ : S32768x512.Idx) := by
  funext a; apply Fin.ext
  match a with
  | ⟨0, _⟩ => rfl
  | ⟨1, _⟩ => rfl

/-- The column maximum: a fold of max from -∞ over the column's scores. -/
theorem st15 (i : S512.Idx) :
    val_main_v15 (F := Ideal) (lift2 v) (lift2 M) i = ((mu v M (i 0) : ℝ) : EReal) := by
  have h : S32768x512.Reduces [0] S512 := by decide
  unfold val_main_v15
  rw [Host.reduce_eq_fold_single FloatOps.maximumf _ _ reducesTo_S32768x512_S512_d0 h h_S_]
  rw [val_main_cst_3_apply, Ideal.ofBits_def, ofBits_neg_inf, ← mu_spec v M (i 0)]
  refine congrArg (fun f => Finset.fold max (⊥ : EReal) f (Finset.univ : Finset (Fin 32768))) ?_
  funext n
  exact (congrArg (val_main_v14 (F := Ideal) (lift2 v) (lift2 M)) (lift_col h i n)).trans (st14 v M _)

theorem st16 (i : S512.Idx) : val_main_v16 (F := Ideal) i = (⊥ : EReal) := by
  rw [val_main_v16_apply, val_main_cst_4_apply, Ideal.ofBits_def, ofBits_neg_inf]

theorem st17 (i : S512.Idx) :
    val_main_v17 (F := Ideal) (lift2 v) (lift2 M) i = ((mu v M (i 0) : ℝ) : EReal) := by
  rw [val_main_v17_apply, st16, st15, Ideal.maximumf_def]
  exact max_eq_right bot_le

theorem st18 (i : S1x512.Idx) :
    val_main_v18 (F := Ideal) (lift2 v) (lift2 M) i = ((mu v M (i 1) : ℝ) : EReal) := by
  rw [val_main_v18_apply, st17]
  rfl

theorem st19 (i : S32768x512.Idx) :
    val_main_v19 (F := Ideal) (lift2 v) (lift2 M) i = ((mu v M (i 1) : ℝ) : EReal) := by
  rw [val_main_v19_apply, st18]
  rfl

theorem st20 (i : S32768x512.Idx) :
    val_main_v20 (F := Ideal) (lift2 v) (lift2 M) i = ((score v M (i 0) (i 1) - mu v M (i 1) : ℝ) : EReal) := by
  rw [val_main_v20_apply, st14, st19, Ideal.subf_def, EReal.coe_sub]

theorem st21 (i : S32768x512.Idx) :
    val_main_v21 (F := Ideal) (lift2 v) (lift2 M) i = ((wexp v M (i 0) (i 1) : ℝ) : EReal) := by
  rw [val_main_v21_apply, st20, Ideal.hostUnary_exp_def, Ideal.exp_coe]
  rfl

theorem st22 (i : S512.Idx) :
    val_main_v22 (F := Ideal) (lift2 v) (lift2 M) i = ((total v M (i 0) : ℝ) : EReal) := by
  rw [val_main_v22_apply, val_main_cst_5_apply, Ideal.ofBits_def, ofBits_zero]
  simp only [st21]
  rw [← coe_sum, ← EReal.coe_add, zero_add]
  rfl

theorem st23 (i : S1x512.Idx) :
    val_main_v23 (F := Ideal) (lift2 v) (lift2 M) i = ((total v M (i 1) : ℝ) : EReal) := by
  rw [val_main_v23_apply, st22]
  rfl

theorem st24 (i : S32768x512.Idx) :
    val_main_v24 (F := Ideal) (lift2 v) (lift2 M) i = ((total v M (i 1) : ℝ) : EReal) := by
  rw [val_main_v24_apply, st23]
  rfl

/-- The normalised weight: the quotient by the column's normaliser, which is positive. -/
theorem st25 (i : S32768x512.Idx) :
    val_main_v25 (F := Ideal) (lift2 v) (lift2 M) i
      = ((wexp v M (i 0) (i 1) / total v M (i 1) : ℝ) : EReal) := by
  rw [val_main_v25_apply, st21, st24, Ideal.hostDivf_def, div_coe_coe _ (total_pos v M (i 1)).ne']

theorem st26 (i : S512x256.Idx) :
    val_main_v26 (F := Ideal) (lift2 v) (lift2 M) i = ((contraction v M (i 0) (i 1) : ℝ) : EReal) := by
  rw [val_main_v26_apply]
  simp only [st25]
  unfold contraction
  rw [coe_sum]
  refine Finset.sum_congr rfl fun n _ => ?_
  rw [EReal.coe_mul]
  rfl

theorem st27 (i : S512x256.Idx) :
    val_main_v27 (F := Ideal) (lift2 v) (lift2 M) i
      = ((contraction v M (i 0) (i 1) - v (i 0) (i 1) : ℝ) : EReal) := by
  rw [val_main_v27_apply, st26, Ideal.subf_def, EReal.coe_sub]
  rfl

theorem st28 (i : S512x256.Idx) : val_main_v28 (F := Ideal) i = ((1 / 2 : ℝ) : EReal) := by
  rw [val_main_v28_apply, val_main_cst_6_apply, Ideal.ofBits_def, ofBits_half]

theorem st29 (i : S512x256.Idx) :
    val_main_v29 (F := Ideal) (lift2 v) (lift2 M) i
      = ((1 / 2 * (contraction v M (i 0) (i 1) - v (i 0) (i 1)) : ℝ) : EReal) := by
  rw [val_main_v29_apply, st28, st27, Ideal.mulf_def, EReal.coe_mul]

theorem st30 (i : S512x256.Idx) :
    val_main_v30 (F := Ideal) (lift2 v) (lift2 k) (lift2 M) i
      = ((1 / 2 * (contraction v M (i 0) (i 1) - v (i 0) (i 1)) * k (i 0) (i 1) : ℝ) : EReal) := by
  rw [val_main_v30_apply, st29, Ideal.mulf_def, EReal.coe_mul]
  rfl

theorem st31 (i : S512x256.Idx) :
    val_main_v31 (F := Ideal) (lift2 v) (lift2 k) (lift2 M) i
      = ((v (i 0) (i 1) + 1 / 2 * (contraction v M (i 0) (i 1) - v (i 0) (i 1)) * k (i 0) (i 1) : ℝ) : EReal) := by
  rw [val_main_v31_apply, st30, Ideal.addf_def, EReal.coe_add]
  rfl

end Stages

/-! ### The result -/

/-- From real inputs the reference's result is the update, entry by entry. -/
theorem result_real (m' : (ℓ : Loc Cert.ReferenceIdeal.nD Cert.ReferenceIdeal.τ Cert.ReferenceIdeal.sig) → Buf (Elt Ideal) ℓ) (c : Dev Cert.ReferenceIdeal.nD) (v k : Fin 512 → Fin 256 → ℝ) (M : Fin 32768 → Fin 256 → ℝ)
    (hv : m' ((c.tc : Thread Cert.ReferenceIdeal.nD Cert.ReferenceIdeal.τ).loc Cert.ReferenceIdeal.main_arg0) = RealEntries.lift2 v)
    (hk : m' ((c.tc : Thread Cert.ReferenceIdeal.nD Cert.ReferenceIdeal.τ).loc Cert.ReferenceIdeal.main_arg1) = RealEntries.lift2 k)
    (hM : m' ((c.tc : Thread Cert.ReferenceIdeal.nD Cert.ReferenceIdeal.τ).loc Cert.ReferenceIdeal.main_arg2) = RealEntries.lift2 M) :
    Cert.ReferenceIdeal.Value.res_out0 (F := Ideal) m' c = RealEntries.lift2 (Retrieval.updated v k M) := by
  show Cert.ReferenceIdeal.Value.res_main_v31 (F := Ideal) m' c = _
  rw [val_main_v31_eq, hv, hk, hM]
  refine funext fun (i : S512x256.Idx) => ?_
  rw [st31 v k M i, contraction_eq_retrieved v M (i 0) (i 1)]
  rfl

end Cert.ReferenceIdeal.RefValue

end
-- ==== Proof.lean ====
/-
  A query matrix v (512 × 256) retrieves from a memory M (32768 × 256): for each query row the memory rows are
  averaged with Gaussian weights exp(-‖M n - v b‖² / 2) / Σ, and the query is moved half way toward that average,
  gated entry by entry by a third matrix.

  The reference forms all 32768 × 512 squared distances, takes a softmax down the memory axis and contracts it with
  the memory. The kernel never forms the distances: it drops the term ‖v b‖²/2, which is the same for every memory
  row of a given query and cancels in the softmax, and sweeps the memory in two halves of four blocks each, keeping
  per query a running maximum of the logits, a running sum of the weights and a running weighted sum of the rows,
  rescaled whenever the maximum moves; the two halves are combined afterwards at their common maximum.

  Over the reals both are the same number, for finite inputs: the weighted sum and the normaliser are both multiplied
  by exp(μ - μ') when the reference point moves from μ to μ', so their quotient over the whole memory does not depend on
  the reference point (Retrieval.lean); the streaming sweep keeps mass and moment of the rows seen so far relative to its
  running maximum (OnlineInvariant.lean), the two halves add up to the whole memory (KernelValue.lean), and the
  reference's normalised weights, contracted with the memory, are that same quotient (RefValue.lean). Finiteness of
  the inputs is used to make every intermediate a real number, the only -∞ being the running maximum before the first
  block, which exp sends to the factor 0.
-/
import proofs.«416778_j2147483648715_3_alg».proof.Defs
import proofs.«416778_j2147483648715_3_alg».proof.Proof.Gen.Kernel
import proofs.«416778_j2147483648715_3_alg».proof.Proof.Gen.Kernel.Frame
import proofs.«416778_j2147483648715_3_alg».proof.Proof.Gen.KernelIdeal
import proofs.«416778_j2147483648715_3_alg».proof.Proof.Gen.KernelIdeal.Frame
import proofs.«416778_j2147483648715_3_alg».proof.Proof.Gen.ReferenceIdeal
import proofs.«416778_j2147483648715_3_alg».proof.Proof.Gen.ReferenceIdeal.Run
import proofs.«416778_j2147483648715_3_alg».proof.Proof.Gen.Pre_finite_inputs
import proofs.«416778_j2147483648715_3_alg».proof.Proof.KernelValue
import proofs.«416778_j2147483648715_3_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference runs and leaves its arguments unchanged: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Nothing was rewritten between the kernel and its reading over the extended reals. -/
theorem preserves : Cert.preserves_Kernel_KernelIdeal := trivial

/-- From finite inputs both programs end with the update `Retrieval.updated` of the same real matrices. -/
theorem algebraic : Cert.algebraic_KernelIdeal_ReferenceIdeal := by
  intro m ρ m' ρ' hpre hagree
  choose v k M hv hk hM using fun c => Cert.KernelIdeal.Inputs.real_inputs m hpre c
  refine ⟨fun c => RealEntries.lift2 (Retrieval.updated (v c) (k c) (M c)), ?_, ?_⟩
  · refine (θ_run Cert.KernelIdeal.defs _ _).mono (fun r h c => ⟨?_, ?_, ?_, ?_⟩) (Cert.KernelIdeal.Gen.run_main m ρ)
    · exact ((h c).2 Cert.KernelIdeal.main_v32 (Pipeline.mem_restRefs_of Cert.KernelIdeal.main_v32 (by decide) (by decide))).trans
        (Cert.KernelIdeal.Online.result_real m c (v c) (k c) (M c) (hv c) (hk c) (hM c))
    · exact ((h c).1 0).trans (((Cert.KernelIdeal.Gen.dats m 0 c).arrAt_in 0 rfl _).trans
        ((Cert.KernelIdeal.Gen.A_eq m c 0).trans (Cert.KernelIdeal.Gen.V_main_arg0 m c)))
    · exact ((h c).2 Cert.KernelIdeal.main_arg1 (Pipeline.mem_restRefs_of Cert.KernelIdeal.main_arg1 (by decide) (by decide))).trans
        (Cert.KernelIdeal.Gen.W_main_arg1 m (Cert.KernelIdeal.Gen.dats m) c)
    · exact ((h c).1 1).trans (((Cert.KernelIdeal.Gen.dats m 0 c).arrAt_in 1 rfl _).trans
        ((Cert.KernelIdeal.Gen.A_eq m c 1).trans (Cert.KernelIdeal.Gen.V_main_arg2 m c)))
  · refine (θ_run Cert.ReferenceIdeal.defs _ _).mono (fun r h c => ⟨(h c).1.trans ?_, (h c).2⟩)
      (Cert.ReferenceIdeal.Value.run (F := Ideal) m' ρ')
    exact Cert.ReferenceIdeal.RefValue.result_real m' c (v c) (k c) (M c) ((hagree c).1.trans (hv c))
      ((hagree c).2.1.trans (hk c)) ((hagree c).2.2.trans (hM c))

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
